-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S12288x4096 : Shape := ⟨2, ![12288, 4096]⟩
abbrev S12288 : Shape := ⟨1, ![12288]⟩
abbrev S393216x1 : Shape := ⟨2, ![393216, 1]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S393216x1 : S_.BroadcastsInDim S393216x1 (![] : Fin 0 → Fin S393216x1.rank)
  reducesTo_S393216x1_S_d0_1 : S393216x1.ReducesTo [0, 1] S_

variable [Facts]

def fn_part2 {F : FTy → Type} [FloatOps F] (main_arg7 : FVec F S393216x1 .f32) (main_v33 : IVec S_ 1) : IVec S_ 1 :=
  let main_v34 : FVec F S393216x1 .f32 := Host.absf main_arg7
  let main_cst_12 : FVec F S_ .f32 := constant S_ .f32 0x7F800000#32
  let main_v35 : FVec F S393216x1 .f32 := broadcastInDim S393216x1 ![] bcast_S_S393216x1 main_cst_12
  let main_v36 : IVec S393216x1 1 := cmpf .olt main_v34 main_v35
  let main_c_13 : IVec S_ 1 := constantI S_ 1 1#1
  let main_v37 : IVec S_ 1 := (fun x v => Host.reduce IntOp.andi x v reducesTo_S393216x1_S_d0_1 h_S_) main_v36 main_c_13
  let main_v38 : IVec S_ 1 := andi main_v33 main_v37
  main_v38

def fn_part1 {F : FTy → Type} [FloatOps F] (main_arg4 : FVec F S393216x1 .f32) (main_arg5 : FVec F S393216x1 .f32) (main_arg6 : FVec F S393216x1 .f32) (main_arg7 : FVec F S393216x1 .f32) (main_v13 : IVec S_ 1) (main_v16 : IVec S393216x1 1) : IVec S_ 1 :=
  let main_c_5 : IVec S_ 1 := constantI S_ 1 1#1
  let main_v17 : IVec S_ 1 := (fun x v => Host.reduce IntOp.andi x v reducesTo_S393216x1_S_d0_1 h_S_) main_v16 main_c_5
  let main_v18 : IVec S_ 1 := andi main_v13 main_v17
  let main_v19 : FVec F S393216x1 .f32 := Host.absf main_arg4
  let main_cst_6 : FVec F S_ .f32 := constant S_ .f32 0x7F800000#32
  let main_v20 : FVec F S393216x1 .f32 := broadcastInDim S393216x1 ![] bcast_S_S393216x1 main_cst_6
  let main_v21 : IVec S393216x1 1 := cmpf .olt main_v19 main_v20
  let main_c_7 : IVec S_ 1 := constantI S_ 1 1#1
  let main_v22 : IVec S_ 1 := (fun x v => Host.reduce IntOp.andi x v reducesTo_S393216x1_S_d0_1 h_S_) main_v21 main_c_7
  let main_v23 : IVec S_ 1 := andi main_v18 main_v22
  let main_v24 : FVec F S393216x1 .f32 := Host.absf main_arg5
  let main_cst_8 : FVec F S_ .f32 := constant S_ .f32 0x7F800000#32
  let main_v25 : FVec F S393216x1 .f32 := broadcastInDim S393216x1 ![] bcast_S_S393216x1 main_cst_8
  let main_v26 : IVec S393216x1 1 := cmpf .olt main_v24 main_v25
  let main_c_9 : IVec S_ 1 := constantI S_ 1 1#1
  let main_v27 : IVec S_ 1 := (fun x v => Host.reduce IntOp.andi x v reducesTo_S393216x1_S_d0_1 h_S_) main_v26 main_c_9
  let main_v28 : IVec S_ 1 := andi main_v23 main_v27
  let main_v29 : FVec F S393216x1 .f32 := Host.absf main_arg6
  let main_cst_10 : FVec F S_ .f32 := constant S_ .f32 0x7F800000#32
  let main_v30 : FVec F S393216x1 .f32 := broadcastInDim S393216x1 ![] bcast_S_S393216x1 main_cst_10
  let main_v31 : IVec S393216x1 1 := cmpf .olt main_v29 main_v30
  let main_c_11 : IVec S_ 1 := constantI S_ 1 1#1
  let main_v32 : IVec S_ 1 := (fun x v => Host.reduce IntOp.andi x v reducesTo_S393216x1_S_d0_1 h_S_) main_v31 main_c_11
  let main_v33 : IVec S_ 1 := andi main_v28 main_v32
  fn_part2 (F := F) main_arg7 main_v33

def fn {F : FTy → Type} [FloatOps F] (main_arg0 : FVec F S16x4096 .f32) (main_arg1 : FVec F S12288x4096 .f32) (main_arg2 : FVec F S12288 .f32) (main_arg3 : FVec F S393216x1 .f32) (main_arg4 : FVec F S393216x1 .f32) (main_arg5 : FVec F S393216x1 .f32) (main_arg6 : FVec F S393216x1 .f32) (main_arg7 : FVec F S393216x1 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S393216x1 .f32 := Host.absf main_arg3
  let main_cst_4 : FVec F S_ .f32 := constant S_ .f32 0x7F800000#32
  let main_v15 : FVec F S393216x1 .f32 := broadcastInDim S393216x1 ![] bcast_S_S393216x1 main_cst_4
  let main_v16 : IVec S393216x1 1 := cmpf .olt main_v14 main_v15
  fn_part1 (F := F) main_arg4 main_arg5 main_arg6 main_arg7 main_v13 main_v16
-- ==== Kernel.lean ====
abbrev S16x4096 : Shape := ⟨2, ![16, 4096]⟩
abbrev S12288x4096 : Shape := ⟨2, ![12288, 4096]⟩
abbrev S12288 : Shape := ⟨1, ![12288]⟩
abbrev S393216x1 : Shape := ⟨2, ![393216, 1]⟩
abbrev S12288x32 : Shape := ⟨2, ![12288, 32]⟩
abbrev S1x12288 : Shape := ⟨2, ![1, 12288]⟩
abbrev S16x12288 : Shape := ⟨2, ![16, 12288]⟩
abbrev S16x1024 : Shape := ⟨2, ![16, 1024]⟩
abbrev S1536x1024 : Shape := ⟨2, ![1536, 1024]⟩
abbrev S1536x32 : Shape := ⟨2, ![1536, 32]⟩
abbrev S1x1536 : Shape := ⟨2, ![1, 1536]⟩
abbrev S16x1536 : Shape := ⟨2, ![16, 1536]⟩
abbrev S1536x8 : Shape := ⟨2, ![1536, 8]⟩
abbrev S1536x128 : Shape := ⟨2, ![1536, 128]⟩
abbrev S1536x1 : Shape := ⟨2, ![1536, 1]⟩

abbrev nBuf : Space → Nat
  | .hbm => 15
  | .vmem => 19
  | .smem => 0
  | _ => 0

abbrev bufTy : (tb : Table) → Fin (tcTables nBuf tb) → BufTy
  | .hbm, ⟨0, _⟩ => ⟨S16x4096, .f32⟩
  | .hbm, ⟨1, _⟩ => ⟨S12288x4096, .f32⟩
  | .hbm, ⟨2, _⟩ => ⟨S12288, .f32⟩
  | .hbm, ⟨3, _⟩ => ⟨S393216x1, .f32⟩
  | .hbm, ⟨4, _⟩ => ⟨S393216x1, .f32⟩
  | .hbm, ⟨5, _⟩ => ⟨S393216x1, .f32⟩
  | .hbm, ⟨6, _⟩ => ⟨S393216x1, .f32⟩
  | .hbm, ⟨7, _⟩ => ⟨S393216x1, .f32⟩
  | .hbm, ⟨8, _⟩ => ⟨S12288x32, .f32⟩
  | .hbm, ⟨9, _⟩ => ⟨S12288x32, .f32⟩
  | .hbm, ⟨10, _⟩ => ⟨S12288x32, .f32⟩
  | .hbm, ⟨11, _⟩ => ⟨S12288x32, .f32⟩
  | .hbm, ⟨12, _⟩ => ⟨S12288x32, .f32⟩
  | .hbm, ⟨13, _⟩ => ⟨S1x12288, .f32⟩
  | .hbm, ⟨14, _⟩ => ⟨S16x12288, .f32⟩
  | .local _ .vmem, ⟨0, _⟩ => ⟨S16x1024, .f32⟩
  | .local _ .vmem, ⟨1, _⟩ => ⟨S16x1024, .f32⟩
  | .local _ .vmem, ⟨2, _⟩ => ⟨S1536x1024, .f32⟩
  | .local _ .vmem, ⟨3, _⟩ => ⟨S1536x1024, .f32⟩
  | .local _ .vmem, ⟨4, _⟩ => ⟨S1536x32, .f32⟩
  | .local _ .vmem, ⟨5, _⟩ => ⟨S1536x32, .f32⟩
  | .local _ .vmem, ⟨6, _⟩ => ⟨S1536x32, .f32⟩
  | .local _ .vmem, ⟨7, _⟩ => ⟨S1536x32, .f32⟩
  | .local _ .vmem, ⟨8, _⟩ => ⟨S1536x32, .f32⟩
  | .local _ .vmem, ⟨9, _⟩ => ⟨S1536x32, .f32⟩
  | .local _ .vmem, ⟨10, _⟩ => ⟨S1536x32, .f32⟩
  | .local _ .vmem, ⟨11, _⟩ => ⟨S1536x32, .f32⟩
  | .local _ .vmem, ⟨12, _⟩ => ⟨S1536x32, .f32⟩
  | .local _ .vmem, ⟨13, _⟩ => ⟨S1536x32, .f32⟩
  | .local _ .vmem, ⟨14, _⟩ => ⟨S1x1536, .f32⟩
  | .local _ .vmem, ⟨15, _⟩ => ⟨S1x1536, .f32⟩
  | .local _ .vmem, ⟨16, _⟩ => ⟨S16x1536, .f32⟩
  | .local _ .vmem, ⟨17, _⟩ => ⟨S16x1536, .f32⟩
  | .local _ .vmem, ⟨18, _⟩ => ⟨S16x1536, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c8_i32 : BitVec 32 := 8#32
  let v3 : BitVec 32 := Scalar.muli arg1 c8_i32
  v3
def k0_off1 (i : grid0.Coords) : Fin 2 → Nat :=
  let c0 : Index := 0#32
  let arg1 : BitVec 32 := BitVec.ofNat 32 (i 1).val
  let c8_i32 : BitVec 32 := 8#32
  let v3 : BitVec 32 := Scalar.muli arg1 c8_i32
  let v4 : BitVec 32 := v3
  let v5 : Index := Scalar.indexCast v4
  ![0, v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1536x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1536x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1536x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S393216x1_S12288x32 : S393216x1.ShapeCasts S12288x32
  shapeCasts_S12288_S1x12288 : S12288.ShapeCasts S1x12288
  inb_S16x1536_S16x1536_0_0 : ∀ a, (![0, 0] : Fin 2 → Nat) a + S16x1536.size a ≤ S16x1536.size a
  h_S16x1536 : 0 < S16x1536.numel
  shapeCasts_S16x1536_S16x1536 : S16x1536.ShapeCasts S16x1536
  h_S1536x8 : 0 < S1536x8.numel
  shapeCasts_S1536x8_S1536x8 : S1536x8.ShapeCasts S1536x8
  inb_S1536x1024_S1536x128_0_0 : ∀ a, (![0, 0] : Fin 2 → Nat) a + S1536x128.size a ≤ S1536x1024.size a
  h_S1536x128 : 0 < S1536x128.numel
  slices_S1536x8_o0_0_S1536x1 : S1536x8.Slices ![0, 0] S1536x1
  broadcasts_S1536x1_S1536x128 : S1536x1.Broadcasts S1536x128
  inb_S1536x1024_S1536x128_0_128 : ∀ a, (![0, 128] : Fin 2 → Nat) a + S1536x128.size a ≤ S1536x1024.size a
  slices_S1536x8_o0_1_S1536x1 : S1536x8.Slices ![0, 1] S1536x1
  inb_S1536x1024_S1536x128_0_256 : ∀ a, (![0, 256] : Fin 2 → Nat) a + S1536x128.size a ≤ S1536x1024.size a
  slices_S1536x8_o0_2_S1536x1 : S1536x8.Slices ![0, 2] S1536x1
  inb_S1536x1024_S1536x128_0_384 : ∀ a, (![0, 384] : Fin 2 → Nat) a + S1536x128.size a ≤ S1536x1024.size a
  slices_S1536x8_o0_3_S1536x1 : S1536x8.Slices ![0, 3] S1536x1
  inb_S1536x1024_S1536x128_0_512 : ∀ a, (![0, 512] : Fin 2 → Nat) a + S1536x128.size a ≤ S1536x1024.size a
  slices_S1536x8_o0_4_S1536x1 : S1536x8.Slices ![0, 4] S1536x1
  inb_S1536x1024_S1536x128_0_640 : ∀ a, (![0, 640] : Fin 2 → Nat) a + S1536x128.size a ≤ S1536x1024.size a
  slices_S1536x8_o0_5_S1536x1 : S1536x8.Slices ![0, 5] S1536x1
  inb_S1536x1024_S1536x128_0_768 : ∀ a, (![0, 768] : Fin 2 → Nat) a + S1536x128.size a ≤ S1536x1024.size a
  slices_S1536x8_o0_6_S1536x1 : S1536x8.Slices ![0, 6] S1536x1
  inb_S1536x1024_S1536x128_0_896 : ∀ a, (![0, 896] : Fin 2 → Nat) a + S1536x128.size a ≤ S1536x1024.size a
  slices_S1536x8_o0_7_S1536x1 : S1536x8.Slices ![0, 7] S1536x1
  concatenates_S1536x128_S1536x128_S1536x128_S1536x128_S1536x128_S1536x128_S1536x128_S1536x128_S1536x1024_d1 : Shape.Concatenates [S1536x128, S1536x128, S1536x128, S1536x128, S1536x128, S1536x128, S1536x128, S1536x128] S1536x1024 1
  inb_S16x1024_S16x1024_0_0 : ∀ a, (![0, 0] : Fin 2 → Nat) a + S16x1024.size a ≤ S16x1024.size a
  h_S16x1024 : 0 < S16x1024.numel
  bitsLt_bf16_f32 : FTy.bits .bf16 < FTy.bits .f32
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S16x1536 : S1x1536.Broadcasts S16x1536
  dot_S16x1024_S1536x1024_S16x1536_1_1_0_0_n_n_wf : DotDims.WF S16x1024 S1536x1024 S16x1536 [1] [1] [0] [0] [] []
  hrank0 : 0 < grid0.rank
  k0_mult1_dvd : ∀ i : grid0.Coords, 8 ∣ (k0_mult1 i).toNat
  k0_off1_inb : ∀ i : grid0.Coords, ∀ a, (k0_off1 i) a + S1536x8.size a ≤ S1536x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x4096.size a
  hwx0_0 : ∀ i : grid0.Coords, EltTy.bits .f32 = 32 ∨ (Rect.block (s := S16x4096) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x1024.size a ≤ S12288x4096.size a
  hwx0_1 : ∀ i : grid0.Coords, EltTy.bits .f32 = 32 ∨ (Rect.block (s := S12288x4096) S1536x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x32.size a ≤ S12288x32.size a
  hwx0_2 : ∀ i : grid0.Coords, EltTy.bits .f32 = 32 ∨ (Rect.block (s := S12288x32) S1536x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1536x32.size a ≤ S12288x32.size a
  hwx0_3 : ∀ i : grid0.Coords, EltTy.bits .f32 = 32 ∨ (Rect.block (s := S12288x32) S1536x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1536x32.size a ≤ S12288x32.size a
  hwx0_4 : ∀ i : grid0.Coords, EltTy.bits .f32 = 32 ∨ (Rect.block (s := S12288x32) S1536x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1536x32.size a ≤ S12288x32.size a
  hwx0_5 : ∀ i : grid0.Coords, EltTy.bits .f32 = 32 ∨ (Rect.block (s := S12288x32) S1536x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1536x32.size a ≤ S12288x32.size a
  hwx0_6 : ∀ i : grid0.Coords, EltTy.bits .f32 = 32 ∨ (Rect.block (s := S12288x32) S1536x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x12288.size a
  hwx0_7 : ∀ i : grid0.Coords, EltTy.bits .f32 = 32 ∨ (Rect.block (s := S1x12288) S1x1536.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x1536.size a ≤ S16x12288.size a
  hwx0_8 : ∀ i : grid0.Coords, EltTy.bits .f32 = 32 ∨ (Rect.block (s := S16x12288) S16x1536.size (cc0_transform_8 i) (hinb0_8 i)).WholeWords (EltTy.packing .f32)

variable [Facts₀]

def dot_S16x1024_S1536x1024_S16x1536_1_1_0_0_n_n : DotDims S16x1024 S1536x1024 S16x1536 where
  lhsContracting := [1]
  rhsContracting := [1]
  lhsNonContracting := [0]
  rhsNonContracting := [0]
  lhsBatch := []
  rhsBatch := []
  wf := dot_S16x1024_S1536x1024_S16x1536_1_1_0_0_n_n_wf

abbrev win0_0 : Pipeline.Window sig grid0 :=
  Pipeline.Window.ofSpec (Memref.whole main_arg0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1536x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1536x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1536x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1536x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1536x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1536x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1536.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S16x1536.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x4096 : Shape := ⟨2, ![16, 4096]⟩
abbrev S12288x4096 : Shape := ⟨2, ![12288, 4096]⟩
abbrev S12288 : Shape := ⟨1, ![12288]⟩
abbrev S393216x1 : Shape := ⟨2, ![393216, 1]⟩
abbrev S393216x128 : Shape := ⟨2, ![393216, 128]⟩
abbrev S_ : Shape := ⟨0, ![]⟩
abbrev S16x12288 : Shape := ⟨2, ![16, 12288]⟩
abbrev S1x12288 : Shape := ⟨2, ![1, 12288]⟩

abbrev nBuf : Space → Nat
  | .hbm => 46
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S12288x4096, .f32⟩
  | .hbm, ⟨2, _⟩ => ⟨S12288, .f32⟩
  | .hbm, ⟨3, _⟩ => ⟨S393216x1, .f32⟩
  | .hbm, ⟨4, _⟩ => ⟨S393216x1, .f32⟩
  | .hbm, ⟨5, _⟩ => ⟨S393216x1, .f32⟩
  | .hbm, ⟨6, _⟩ => ⟨S393216x1, .f32⟩
  | .hbm, ⟨7, _⟩ => ⟨S393216x1, .f32⟩
  | .hbm, ⟨8, _⟩ => ⟨S393216x1, .f32⟩
  | .hbm, ⟨9, _⟩ => ⟨S393216x1, .f32⟩
  | .hbm, ⟨10, _⟩ => ⟨S393216x1, .f32⟩
  | .hbm, ⟨11, _⟩ => ⟨S393216x1, .f32⟩
  | .hbm, ⟨12, _⟩ => ⟨S393216x128, .f32⟩
  | .hbm, ⟨13, _⟩ => ⟨S393216x128, .f32⟩
  | .hbm, ⟨14, _⟩ => ⟨S393216x128, .f32⟩
  | .hbm, ⟨15, _⟩ => ⟨S393216x128, .f32⟩
  | .hbm, ⟨16, _⟩ => ⟨S393216x128, .f32⟩
  | .hbm, ⟨17, _⟩ => ⟨S393216x128, .f32⟩
  | .hbm, ⟨18, _⟩ => ⟨S393216x128, .f32⟩
  | .hbm, ⟨19, _⟩ => ⟨S393216x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S393216x128, .f32⟩
  | .hbm, ⟨24, _⟩ => ⟨S393216x128, .f32⟩
  | .hbm, ⟨25, _⟩ => ⟨S_, .f32⟩
  | .hbm, ⟨26, _⟩ => ⟨S393216x128, .f32⟩
  | .hbm, ⟨27, _⟩ => ⟨S393216x128, .f32⟩
  | .hbm, ⟨28, _⟩ => ⟨S393216x128, .f32⟩
  | .hbm, ⟨29, _⟩ => ⟨S393216x128, .f32⟩
  | .hbm, ⟨30, _⟩ => ⟨S393216x1, .f32⟩
  | .hbm, ⟨31, _⟩ => ⟨S393216x1, .f32⟩
  | .hbm, ⟨32, _⟩ => ⟨S393216x1, .f32⟩
  | .hbm, ⟨33, _⟩ => ⟨S393216x1, .f32⟩
  | .hbm, ⟨34, _⟩ => ⟨S393216x1, .f32⟩
  | .hbm, ⟨35, _⟩ => ⟨S393216x128, .f32⟩
  | .hbm, ⟨36, _⟩ => ⟨S393216x128, .f32⟩
  | .hbm, ⟨37, _⟩ => ⟨S393216x128, .f32⟩
  | .hbm, ⟨38, _⟩ => ⟨S393216x128, .f32⟩
  | .hbm, ⟨39, _⟩ => ⟨S393216x128, .f32⟩
  | .hbm, ⟨40, _⟩ => ⟨S393216x128, .f32⟩
  | .hbm, ⟨41, _⟩ => ⟨S12288x4096, .f32⟩
  | .hbm, ⟨42, _⟩ => ⟨S16x12288, .f32⟩
  | .hbm, ⟨43, _⟩ => ⟨S1x12288, .f32⟩
  | .hbm, ⟨44, _⟩ => ⟨S16x12288, .f32⟩
  | .hbm, ⟨45, _⟩ => ⟨S16x12288, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_cst_0 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call3_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  shapeCasts_S12288x4096_S393216x128 : S12288x4096.ShapeCasts S393216x128
  bcast_S393216x1_S393216x128_0_1 : S393216x1.BroadcastsInDim S393216x128 (![0, 1] : Fin 2 → Fin S393216x128.rank)
  bcast_S_S393216x128 : S_.BroadcastsInDim S393216x128 (![] : Fin 0 → Fin S393216x128.rank)
  shapeCasts_S393216x128_S12288x4096 : S393216x128.ShapeCasts S12288x4096
  bcast_S12288_S1x12288_1 : S12288.BroadcastsInDim S1x12288 (![1] : Fin 1 → Fin S1x12288.rank)
  bcast_S1x12288_S16x12288_0_1 : S1x12288.BroadcastsInDim S16x12288 (![0, 1] : Fin 2 → Fin S16x12288.rank)
  dot_S16x4096_S12288x4096_S16x12288_1_1_0_0_n_n_wf : DotDims.WF S16x4096 S12288x4096 S16x12288 [1] [1] [0] [0] [] []

variable [Facts₀]

def dot_S16x4096_S12288x4096_S16x12288_1_1_0_0_n_n : DotDims S16x4096 S12288x4096 S16x12288 where
  lhsContracting := [1]
  rhsContracting := [1]
  lhsNonContracting := [0]
  rhsNonContracting := [0]
  lhsBatch := []
  rhsBatch := []
  wf := dot_S16x4096_S12288x4096_S16x12288_1_1_0_0_n_n_wf

class Facts : Prop extends Facts₀ where

variable [Facts]
-- ==== Proof.QuantElem.lean ====
/-
  One weight's fake-quantisation on the extended reals.

  A weight `w` and its group's five parameters (scale `a`, zero point `z`, zero-point shift `dz`, and the scale's
  bounds `lo`, `hi`) give the dequantised weight

      s   = min hi (max lo a)                         -- the clamped scale
      q   = min 15 (max 0 (round (w / s + z)))        -- the 4-bit code
      deq = (q - z) * s - min s (max (0 - s) dz)

  One program spells each clamp and the rounding "straight through", as `v + (f v - v)`. On the extended reals that
  is `f v` whenever `v` is a real number (`ste`), and not otherwise (`⊤ + (f ⊤ - ⊤) = ⊥`). The scale and the shift are
  reals, so their clamps agree outright. The rounded value `w / s + z` is a real exactly when `s ≠ 0`; when `s = 0`
  the quotient is an infinity (or the junk value of `0 / 0`), the two spellings of the code differ — but the code is
  then multiplied by `s = 0`, and on the extended reals every product with `0` is `0`. So the two spellings of `deq`
  agree at every real input (`deqSte_eq`).
-/
import Idealize.ShloMosaic.PureOps.Ideal
import Idealize.ShloMosaic.PureOps.Ideal.Laws

noncomputable section

namespace Cert.Quant

open Idealize.ShloMosaic

/-- Round to nearest, ties to even, with the infinities fixed. -/
abbrev rnd (x : EReal) : EReal := Ideal.liftRound Ideal.roundHalfEven x

/-- The words of the constants `0.0` and `15.0`, left unevaluated: both programs carry the same words. -/
abbrev c0 : EReal := Ideal.ofBits .f32 0x00000000#32
abbrev c15 : EReal := Ideal.ofBits .f32 0x41700000#32

/-- The clamped scale. -/
def scl (a lo hi : EReal) : EReal := min hi (max lo a)

/-- The dequantised weight, every clamp and the rounding applied directly. -/
def deq (w a z dz lo hi : EReal) : EReal :=
  (min c15 (max c0 (rnd (Ideal.div w (scl a lo hi) + z))) - z) * scl a lo hi
    - min (scl a lo hi) (max (c0 - scl a lo hi) dz)

/-- The straight-through clamped scale. -/
def sclSte (a lo hi : EReal) : EReal := a + (min hi (max lo a) - a)

/-- The dequantised weight, every clamp and the rounding spelt straight through. -/
def deqSte (w a z dz lo hi : EReal) : EReal :=
  let s := sclSte a lo hi
  let y := Ideal.div w s + z
  let r := y + (rnd y - y)
  let q := r + (min c15 (max c0 r) - r)
  let sd := dz + (min s (max (-s) dz) - dz)
  (q - z) * s - sd

/-- Straight through at a real number: `a + (b - a) = b` for real `a` and any extended real `b`. -/
theorem ste (a : ℝ) (b : EReal) : (a : EReal) + (b - (a : EReal)) = b := by
  induction b using EReal.rec with
  | bot => simp [sub_eq_add_neg]
  | coe b => rw [← EReal.coe_sub, ← EReal.coe_add]; congr 1; ring
  | top => simp [sub_eq_add_neg]

/-- The zero word denotes `0`, so subtracting from it negates. -/
theorem c0_sub (x : EReal) : c0 - x = -x := by
  show Ideal.ofBits .f32 0x00000000#32 - x = -x
  rw [Ideal.ofBits_zero_f32, zero_sub]

/-- The two spellings of the dequantised weight agree at real inputs. -/
theorem deqSte_eq (w a z dz lo hi : ℝ) :
    deqSte (w : EReal) a z dz lo hi = deq (w : EReal) a z dz lo hi := by
  have hs : sclSte (a : EReal) lo hi = scl (a : EReal) lo hi := ste a _
  have hr : scl (a : EReal) lo hi = ((min hi (max lo a) : ℝ) : EReal) := by
    unfold scl; rw [EReal.coe_strictMono.monotone.map_min, EReal.coe_strictMono.monotone.map_max]
  unfold deqSte deq
  simp only []
  rw [hs, ste dz, c0_sub, hr]
  by_cases h0 : min hi (max lo a) = 0
  · rw [h0, EReal.coe_zero, mul_zero, mul_zero]
  · have hy : Ideal.div (w : EReal) ((min hi (max lo a) : ℝ) : EReal) + (z : EReal)
        = ((w * (1 / min hi (max lo a)) + z : ℝ) : EReal) := by
      rw [Ideal.div_coe h0, ← EReal.coe_mul, ← EReal.coe_add]
    rw [hy]
    have hrnd : rnd ((w * (1 / min hi (max lo a)) + z : ℝ) : EReal)
        = (((Ideal.roundHalfEven (w * (1 / min hi (max lo a)) + z) : ℤ) : ℝ) : EReal) := Ideal.liftRound_coe _ _
    rw [hrnd, ste, ste]

end Cert.Quant

end
-- ==== Proof.KernelPoint.lean ====
/-
  What one grid point does to the accumulator.

  At grid point `(m, k)` the body holds a [16, 1024] block of `x`, a [1536, 1024] block of the weights and, of each of
  the five group parameters, a [1536, 32] block of which it uses the band of 8 columns starting at column `8 k`. The
  weight block is dequantised in eight lane groups of 128 columns, group `g` with column `g` of the five bands; the
  groups are laid side by side again, and the accumulator receives `x_block · dequantised_blockᵀ`.

  `upd` is that update as one term over the blocks, at any float instance; `slab` is one lane group's
  dequantisation, the same arithmetic for every `g`. On the extended reals (`upd_apply`) the updated accumulator
  at `(t, r)` is the old one plus `∑ j, x (t, j) * deq (w (r, j)) (the parameters at (r, 8 k + j / 128))`.
-/
import proofs.«166592_j53850299957966_1_alg».proof.Proof.Gen.KernelIdeal.Skeleton
import proofs.«166592_j53850299957966_1_alg».proof.Proof.QuantElem
import Idealize.ShloMosaic.Lib.Pipeline.Value
import Idealize.ShloMosaic.Lib.ValueIdx
import Idealize.ShloMosaic.PureOps.Ideal.Laws

set_option maxRecDepth 16384

noncomputable section

namespace Cert.KernelIdeal.Pt

open Cert.KernelIdeal Cert.KernelIdeal.Gen Idealize.ShloMosaic Idealize.ShloMosaic.TcCoe
open Idealize.ShloMosaic.ValueIdx Idealize.SL.Sem
open scoped BigOperators

variable {F : FTy → Type} [FloatOps F]

/-- The band of 8 parameter columns the point uses: columns `8 k …` of a [1536, 32] block. -/
abbrev band (i : grid0.Coords) (x : Vec F S1536x32 .f32) : Vec F S1536x8 .f32 :=
  View.ld x (Rect.unit (k0_off1 i) S1536x8.size (k0_off1_inb i))

/-- One lane group's dequantisation: column `g` of the five bands against a [1536, 128] group of weights. -/
def slab (g : ℕ) (hs : S1536x8.Slices ![0, g] S1536x1) (hb : S1536x1.Broadcasts S1536x128)
    (a z dz lo hi : FVec F S1536x8 .f32) (wl : Vec F S1536x128 .f32) : FVec F S1536x128 .f32 :=
  have a1 : FVec F S1536x1 .f32 := extractStridedSlice S1536x1 ![0, g] a hs
  have z1 : FVec F S1536x1 .f32 := extractStridedSlice S1536x1 ![0, g] z hs
  have d1 : FVec F S1536x1 .f32 := extractStridedSlice S1536x1 ![0, g] dz hs
  have l1 : FVec F S1536x1 .f32 := extractStridedSlice S1536x1 ![0, g] lo hs
  have h1 : FVec F S1536x1 .f32 := extractStridedSlice S1536x1 ![0, g] hi hs
  have s : FVec F S1536x1 .f32 := minimumf h1 (maximumf l1 a1)
  have q : FVec F S1536x128 .f32 := roundeven (addf (divf wl (broadcastTo S1536x128 s hb)) (broadcastTo S1536x128 z1 hb))
  have code : FVec F S1536x128 .f32 :=
    minimumf (broadcast S1536x128 (Scalar.ofBits .f32 0x41700000#32)) (maximumf (broadcast S1536x128 (Scalar.ofBits .f32 0x00000000#32)) q)
  have sd : FVec F S1536x1 .f32 := minimumf s (maximumf (subf (broadcast S1536x1 (Scalar.ofBits .f32 0x00000000#32)) s) d1)
  subf (mulf (subf code (broadcastTo S1536x128 z1 hb)) (broadcastTo S1536x128 s hb)) (broadcastTo S1536x128 sd hb)

/-- What the point leaves in the accumulator `acc`, over its blocks. -/
def upd (i : grid0.Coords) (x0 : Vec F S16x1024 .f32) (x1 : Vec F S1536x1024 .f32)
    (x2 x3 x4 x5 x6 : Vec F S1536x32 .f32) (acc : Vec F S16x1536 .f32) : FVec F S16x1536 .f32 :=
  k0_pay1 (k0_pay31 (k0_pay4 (band i x2)) (k0_pay5 (band i x3)) (k0_pay6 (band i x4)) (k0_pay7 (band i x5)) (k0_pay8 (band i x6)) (k0_pay13 (k0_pay10 (band i x2) (band i x4) (band i x5) (band i x6)) (k0_pay11 (band i x2) (band i x3) (band i x5) (band i x6) (View.ld x1 (Rect.unit ![0, 0] S1536x128.size inb_S1536x1024_S1536x128_0_0))) (k0_pay12 (band i x2) (band i x5) (band i x6))) (k0_pay14 (k0_pay4 (band i x2)) (k0_pay5 (band i x3)) (k0_pay6 (band i x4)) (k0_pay7 (band i x5)) (k0_pay8 (band i x6)) (View.ld x1 (Rect.unit ![0, 128] S1536x128.size inb_S1536x1024_S1536x128_0_128))) (k0_pay19 (k0_pay15 (k0_pay5 (band i x3))) (k0_pay16 (k0_pay4 (band i x2)) (k0_pay7 (band i x5)) (k0_pay8 (band i x6))) (k0_pay17 (k0_pay4 (band i x2)) (k0_pay5 (band i x3)) (k0_pay7 (band i x5)) (k0_pay8 (band i x6)) (View.ld x1 (Rect.unit ![0, 256] S1536x128.size inb_S1536x1024_S1536x128_0_256))) (k0_pay18 (k0_pay4 (band i x2)) (k0_pay6 (band i x4)) (k0_pay7 (band i x5)) (k0_pay8 (band i x6)))) (k0_pay20 (k0_pay4 (band i x2)) (k0_pay5 (band i x3)) (k0_pay6 (band i x4)) (k0_pay7 (band i x5)) (k0_pay8 (band i x6)) (View.ld x1 (Rect.unit ![0, 384] S1536x128.size inb_S1536x1024_S1536x128_0_384))) (k0_pay25 (k0_pay21 (k0_pay5 (band i x3))) (k0_pay22 (k0_pay6 (band i x4))) (k0_pay23 (k0_pay4 (band i x2)) (k0_pay7 (band i x5)) (k0_pay8 (band i x6))) (k0_pay24 (k0_pay4 (band i x2)) (k0_pay5 (band i x3)) (k0_pay7 (band i x5)) (k0_pay8 (band i x6)) (View.ld x1 (Rect.unit ![0, 512] S1536x128.size inb_S1536x1024_S1536x128_0_512)))) (k0_pay26 (k0_pay4 (band i x2)) (k0_pay5 (band i x3)) (k0_pay6 (band i x4)) (k0_pay7 (band i x5)) (k0_pay8 (band i x6)) (View.ld x1 (Rect.unit ![0, 640] S1536x128.size inb_S1536x1024_S1536x128_0_640))) (k0_pay27 (k0_pay5 (band i x3))) (k0_pay28 (k0_pay6 (band i x4))) (k0_pay29 (k0_pay4 (band i x2)) (k0_pay7 (band i x5)) (k0_pay8 (band i x6))) (k0_pay30 (k0_pay4 (band i x2)) (k0_pay5 (band i x3)) (k0_pay7 (band i x5)) (k0_pay8 (band i x6)) (View.ld x1 (Rect.unit ![0, 768] S1536x128.size inb_S1536x1024_S1536x128_0_768))) (Scalar.ofBits .f32 0x00000000#32) (Scalar.ofBits .f32 0x41700000#32) (View.ld x1 (Rect.unit ![0, 896] S1536x128.size inb_S1536x1024_S1536x128_0_896)) x0 acc)

/-- The dequantised [1536, 1024] block: the eight lane groups side by side. -/
def wblk (i : grid0.Coords) (x1 : Vec F S1536x1024 .f32) (x2 x3 x4 x5 x6 : Vec F S1536x32 .f32) : FVec F S1536x1024 .f32 :=
  concatenate S1536x1024 1
      [⟨S1536x128, slab 0 slices_S1536x8_o0_0_S1536x1 broadcasts_S1536x1_S1536x128 (k0_pay4 (band i x2)) (k0_pay5 (band i x3)) (k0_pay6 (band i x4)) (k0_pay7 (band i x5)) (k0_pay8 (band i x6)) (View.ld x1 (Rect.unit ![0, 0] S1536x128.size inb_S1536x1024_S1536x128_0_0))⟩,
        ⟨S1536x128, slab 1 slices_S1536x8_o0_1_S1536x1 broadcasts_S1536x1_S1536x128 (k0_pay4 (band i x2)) (k0_pay5 (band i x3)) (k0_pay6 (band i x4)) (k0_pay7 (band i x5)) (k0_pay8 (band i x6)) (View.ld x1 (Rect.unit ![0, 128] S1536x128.size inb_S1536x1024_S1536x128_0_128))⟩,
        ⟨S1536x128, slab 2 slices_S1536x8_o0_2_S1536x1 broadcasts_S1536x1_S1536x128 (k0_pay4 (band i x2)) (k0_pay5 (band i x3)) (k0_pay6 (band i x4)) (k0_pay7 (band i x5)) (k0_pay8 (band i x6)) (View.ld x1 (Rect.unit ![0, 256] S1536x128.size inb_S1536x1024_S1536x128_0_256))⟩,
        ⟨S1536x128, slab 3 slices_S1536x8_o0_3_S1536x1 broadcasts_S1536x1_S1536x128 (k0_pay4 (band i x2)) (k0_pay5 (band i x3)) (k0_pay6 (band i x4)) (k0_pay7 (band i x5)) (k0_pay8 (band i x6)) (View.ld x1 (Rect.unit ![0, 384] S1536x128.size inb_S1536x1024_S1536x128_0_384))⟩,
        ⟨S1536x128, slab 4 slices_S1536x8_o0_4_S1536x1 broadcasts_S1536x1_S1536x128 (k0_pay4 (band i x2)) (k0_pay5 (band i x3)) (k0_pay6 (band i x4)) (k0_pay7 (band i x5)) (k0_pay8 (band i x6)) (View.ld x1 (Rect.unit ![0, 512] S1536x128.size inb_S1536x1024_S1536x128_0_512))⟩,
        ⟨S1536x128, slab 5 slices_S1536x8_o0_5_S1536x1 broadcasts_S1536x1_S1536x128 (k0_pay4 (band i x2)) (k0_pay5 (band i x3)) (k0_pay6 (band i x4)) (k0_pay7 (band i x5)) (k0_pay8 (band i x6)) (View.ld x1 (Rect.unit ![0, 640] S1536x128.size inb_S1536x1024_S1536x128_0_640))⟩,
        ⟨S1536x128, slab 6 slices_S1536x8_o0_6_S1536x1 broadcasts_S1536x1_S1536x128 (k0_pay4 (band i x2)) (k0_pay5 (band i x3)) (k0_pay6 (band i x4)) (k0_pay7 (band i x5)) (k0_pay8 (band i x6)) (View.ld x1 (Rect.unit ![0, 768] S1536x128.size inb_S1536x1024_S1536x128_0_768))⟩,
        ⟨S1536x128, slab 7 slices_S1536x8_o0_7_S1536x1 broadcasts_S1536x1_S1536x128 (k0_pay4 (band i x2)) (k0_pay5 (band i x3)) (k0_pay6 (band i x4)) (k0_pay7 (band i x5)) (k0_pay8 (band i x6)) (View.ld x1 (Rect.unit ![0, 896] S1536x128.size inb_S1536x1024_S1536x128_0_896))⟩]
      concatenates_S1536x128_S1536x128_S1536x128_S1536x128_S1536x128_S1536x128_S1536x128_S1536x128_S1536x1024_d1

/-- The update is the accumulator plus the block product against the dequantised block. -/
theorem upd_eq (i : grid0.Coords) (x0 : Vec F S16x1024 .f32) (x1 : Vec F S1536x1024 .f32)
    (x2 x3 x4 x5 x6 : Vec F S1536x32 .f32) (acc : Vec F S16x1536 .f32) :
    upd i x0 x1 x2 x3 x4 x5 x6 acc
      = k0_pay1 (addf acc (matmul dot_S16x1024_S1536x1024_S16x1536_1_1_0_0_n_n none (truncf .bf16 x0 bitsLt_bf16_f32)
          (truncf .bf16 (wblk i x1 x2 x3 x4 x5 x6) bitsLt_bf16_f32) (constant S16x1536 .f32 0x00000000#32))) := rfl

/-! ## Read at an index, on the extended reals -/

section AtIdeal

/-- A column broadcast over 128 lanes, read at `(r, l)`: the column's entry `r`. -/
theorem col_bcast_apply {α : Type} (v : S1536x1.Idx → α) (hb : S1536x1.Broadcasts S1536x128) (r : Fin 1536) (l : Fin 128) :
    broadcastTo S1536x128 v hb (ix2 r l) = v (ix2 r (0 : Fin 1)) :=
  broadcastTo_apply v hb (ix2 r l) (ix2 r (0 : Fin 1)) (fun a => match a with
    | ⟨0, _⟩ => by show r.val = if (1536 : ℕ) = 1 then 0 else r.val; rw [if_neg (by decide)]
    | ⟨1, _⟩ => by show 0 = if (1 : ℕ) = 1 then 0 else l.val; rw [if_pos rfl])

/-- Column `g` of a band of 8, read at row `r`. -/
theorem col_slice_apply {α : Type} (g : ℕ) (hg : g < 8) (v : S1536x8.Idx → α) (hs : S1536x8.Slices ![0, g] S1536x1)
    (r : Fin 1536) : extractStridedSlice S1536x1 ![0, g] v hs (ix2 r (0 : Fin 1)) = v (ix2 r (⟨g, hg⟩ : Fin 8)) :=
  extractStridedSlice_apply ![0, g] v hs (ix2 r (0 : Fin 1)) (ix2 r (⟨g, hg⟩ : Fin 8)) (fun a => match a with
    | ⟨0, _⟩ => by show r.val = 0 + r.val; omega
    | ⟨1, _⟩ => by show g = g + 0; omega)

theorem roundeven_apply {s : Shape} (v : FVec Ideal s .f32) (j : s.Idx) : roundeven v j = Cert.Quant.rnd (v j) := rfl

/-- One lane group at `(r, l)`: the dequantised weight `(r, l)` of the group, with row `r` of column `g` of the bands. -/
theorem slab_apply (g : ℕ) (hg : g < 8) (hs : S1536x8.Slices ![0, g] S1536x1) (hb : S1536x1.Broadcasts S1536x128)
    (a z dz lo hi : FVec Ideal S1536x8 .f32) (wl : Vec Ideal S1536x128 .f32) (r : Fin 1536) (l : Fin 128) :
    slab g hs hb a z dz lo hi wl (ix2 r l)
      = Cert.Quant.deq (wl (ix2 r l)) (a (ix2 r (⟨g, hg⟩ : Fin 8))) (z (ix2 r (⟨g, hg⟩ : Fin 8))) (dz (ix2 r (⟨g, hg⟩ : Fin 8)))
          (lo (ix2 r (⟨g, hg⟩ : Fin 8))) (hi (ix2 r (⟨g, hg⟩ : Fin 8))) := by
  unfold slab
  simp only [subf_apply, mulf_apply, addf_apply, divf_apply, minimumf_apply, maximumf_apply, broadcast_apply,
    roundeven_apply, col_bcast_apply, col_slice_apply g hg]
  rfl

end AtIdeal

section AtIdeal2

/-- A group of 128 weight columns starting at column `o`, read at `(r, l)`. -/
theorem chunk_apply {Val : EltTy → Type} {e : EltTy} (x1 : S1536x1024.Idx → Val e) (o : ℕ)
    (inb : ∀ a, (![0, o] : Fin 2 → ℕ) a + S1536x128.size a ≤ S1536x1024.size a) (r : Fin 1536) (l : Fin 128)
    (h : o + l.val < 1024) :
    View.ld x1 (Rect.unit ![0, o] S1536x128.size inb) (ix2 r l) = x1 (ix2 r (⟨o + l.val, h⟩ : Fin 1024)) := by
  show x1 _ = x1 _
  refine congrArg x1 (funext fun a => Fin.ext ?_)
  match a with
  | ⟨0, _⟩ => show 0 + 1 * r.val = r.val; omega
  | ⟨1, _⟩ => show o + 1 * l.val = o + l.val; omega

/-- The band of a parameter block, read at `(r, g)`: column `8 k + g` of the block. -/
theorem band_apply (i : grid0.Coords) (x : Vec F S1536x32 .f32) (r : Fin 1536) (g : Fin 8)
    (h : 8 * (i 1).val + g.val < 32) :
    band i x (ix2 r g) = x (ix2 r (⟨8 * (i 1).val + g.val, h⟩ : Fin 32)) := by
  show x _ = x _
  refine congrArg x (funext fun a => Fin.ext ?_)
  match a with
  | ⟨0, _⟩ => show (k0_off1 i) 0 + 1 * r.val = r.val; rw [k0_off1_eq i]; show 0 + 1 * r.val = r.val; omega
  | ⟨1, _⟩ => show (k0_off1 i) 1 + 1 * g.val = 8 * (i 1).val + g.val; rw [k0_off1_eq i]; show 8 * (i 1).val + 1 * g.val = _; omega

theorem coord1_lt (i : grid0.Coords) : (i 1).val < 4 := (i 1).isLt

/-- The parameter column of weight column `j` of the point's block: `8 k + j / 128`. -/
def col (i : grid0.Coords) (j : ℕ) (hj : j < 1024) : Fin 32 :=
  ⟨8 * (i 1).val + j / 128, by have := coord1_lt i; omega⟩

theorem col_eq (i : grid0.Coords) (j : ℕ) (hj : j < 1024) (g : ℕ) (hg : g < 8) (e : j / 128 = g) :
    (⟨8 * (i 1).val + g, by have := coord1_lt i; omega⟩ : Fin 32) = col i j hj := by
  unfold col; exact Fin.ext (by show 8 * (i 1).val + g = 8 * (i 1).val + j / 128; omega)

/-- Lane group `g` of the point's block at `(r, l)`: the dequantised weight `(r, 128 g + l)` of the block. -/
theorem group_apply (i : grid0.Coords) (x1 : Vec Ideal S1536x1024 .f32) (x2 x3 x4 x5 x6 : Vec Ideal S1536x32 .f32)
    (g : ℕ) (hg : g < 8) (hs : S1536x8.Slices ![0, g] S1536x1) (hb : S1536x1.Broadcasts S1536x128)
    (inb : ∀ a, (![0, 128 * g] : Fin 2 → ℕ) a + S1536x128.size a ≤ S1536x1024.size a)
    (r : Fin 1536) (l : Fin 128) (h : 128 * g + l.val < 1024) :
    slab g hs hb (k0_pay4 (band i x2)) (k0_pay5 (band i x3)) (k0_pay6 (band i x4)) (k0_pay7 (band i x5)) (k0_pay8 (band i x6))
        (View.ld x1 (Rect.unit ![0, 128 * g] S1536x128.size inb)) (ix2 r l)
      = Cert.Quant.deq (x1 (ix2 r (⟨128 * g + l.val, h⟩ : Fin 1024)))
          (x2 (ix2 r (⟨8 * (i 1).val + g, by have := coord1_lt i; omega⟩ : Fin 32)))
          (x3 (ix2 r (⟨8 * (i 1).val + g, by have := coord1_lt i; omega⟩ : Fin 32)))
          (x4 (ix2 r (⟨8 * (i 1).val + g, by have := coord1_lt i; omega⟩ : Fin 32)))
          (x5 (ix2 r (⟨8 * (i 1).val + g, by have := coord1_lt i; omega⟩ : Fin 32)))
          (x6 (ix2 r (⟨8 * (i 1).val + g, by have := coord1_lt i; omega⟩ : Fin 32))) := by
  rw [slab_apply g hg, chunk_apply x1 (128 * g) inb r l h]
  unfold k0_pay4 k0_pay5 k0_pay6 k0_pay7 k0_pay8
  simp only [shapeCast_self]
  have hc := coord1_lt i
  rw [band_apply i x2 r (⟨g, hg⟩ : Fin 8) (by show 8 * (i 1).val + g < 32; omega),
    band_apply i x3 r (⟨g, hg⟩ : Fin 8) (by show 8 * (i 1).val + g < 32; omega),
    band_apply i x4 r (⟨g, hg⟩ : Fin 8) (by show 8 * (i 1).val + g < 32; omega),
    band_apply i x5 r (⟨g, hg⟩ : Fin 8) (by show 8 * (i 1).val + g < 32; omega),
    band_apply i x6 r (⟨g, hg⟩ : Fin 8) (by show 8 * (i 1).val + g < 32; omega)]

/-- The dequantised block at `(r, j)`. -/
theorem wblk_apply (i : grid0.Coords) (x1 : Vec Ideal S1536x1024 .f32) (x2 x3 x4 x5 x6 : Vec Ideal S1536x32 .f32)
    (r : Fin 1536) (j : Fin 1024) :
    wblk i x1 x2 x3 x4 x5 x6 (ix2 r j)
      = Cert.Quant.deq (x1 (ix2 r j)) (x2 (ix2 r (col i j.val j.isLt))) (x3 (ix2 r (col i j.val j.isLt)))
          (x4 (ix2 r (col i j.val j.isLt))) (x5 (ix2 r (col i j.val j.isLt))) (x6 (ix2 r (col i j.val j.isLt))) := by
  obtain ⟨jv, hj⟩ := j
  obtain ⟨g, l, hg, hl, rfl⟩ : ∃ g l : ℕ, g < 8 ∧ l < 128 ∧ jv = 128 * g + l :=
    ⟨jv / 128, jv % 128, by omega, Nat.mod_lt _ (by decide), by omega⟩
  unfold wblk
  interval_cases g
  · exact (concatenate_apply_piece (1 : Fin 2) _ _ (ix2 r (⟨128 * 0 + l, hj⟩ : Fin 1024)) 0 (by simp) S1536x128 _ rfl rfl (128 * 0) rfl
        (ix2 r (⟨l, hl⟩ : Fin 128)) (fun b hb => by
          match b with
          | ⟨0, _⟩ => rfl
          | ⟨1, _⟩ => exact absurd rfl hb) (by show 128 * 0 + l = 128 * 0 + l; rfl)).trans
      ((group_apply i x1 x2 x3 x4 x5 x6 0 (by decide) _ _ _ r (⟨l, hl⟩ : Fin 128) hj).trans
        (by rw [col_eq i (128 * 0 + l) hj 0 (by decide) (by omega)]))
  · exact (concatenate_apply_piece (1 : Fin 2) _ _ (ix2 r (⟨128 * 1 + l, hj⟩ : Fin 1024)) 1 (by simp) S1536x128 _ rfl rfl (128 * 1) rfl
        (ix2 r (⟨l, hl⟩ : Fin 128)) (fun b hb => by
          match b with
          | ⟨0, _⟩ => rfl
          | ⟨1, _⟩ => exact absurd rfl hb) (by show 128 * 1 + l = 128 * 1 + l; rfl)).trans
      ((group_apply i x1 x2 x3 x4 x5 x6 1 (by decide) _ _ _ r (⟨l, hl⟩ : Fin 128) hj).trans
        (by rw [col_eq i (128 * 1 + l) hj 1 (by decide) (by omega)]))
  · exact (concatenate_apply_piece (1 : Fin 2) _ _ (ix2 r (⟨128 * 2 + l, hj⟩ : Fin 1024)) 2 (by simp) S1536x128 _ rfl rfl (128 * 2) rfl
        (ix2 r (⟨l, hl⟩ : Fin 128)) (fun b hb => by
          match b with
          | ⟨0, _⟩ => rfl
          | ⟨1, _⟩ => exact absurd rfl hb) (by show 128 * 2 + l = 128 * 2 + l; rfl)).trans
      ((group_apply i x1 x2 x3 x4 x5 x6 2 (by decide) _ _ _ r (⟨l, hl⟩ : Fin 128) hj).trans
        (by rw [col_eq i (128 * 2 + l) hj 2 (by decide) (by omega)]))
  · exact (concatenate_apply_piece (1 : Fin 2) _ _ (ix2 r (⟨128 * 3 + l, hj⟩ : Fin 1024)) 3 (by simp) S1536x128 _ rfl rfl (128 * 3) rfl
        (ix2 r (⟨l, hl⟩ : Fin 128)) (fun b hb => by
          match b with
          | ⟨0, _⟩ => rfl
          | ⟨1, _⟩ => exact absurd rfl hb) (by show 128 * 3 + l = 128 * 3 + l; rfl)).trans
      ((group_apply i x1 x2 x3 x4 x5 x6 3 (by decide) _ _ _ r (⟨l, hl⟩ : Fin 128) hj).trans
        (by rw [col_eq i (128 * 3 + l) hj 3 (by decide) (by omega)]))
  · exact (concatenate_apply_piece (1 : Fin 2) _ _ (ix2 r (⟨128 * 4 + l, hj⟩ : Fin 1024)) 4 (by simp) S1536x128 _ rfl rfl (128 * 4) rfl
        (ix2 r (⟨l, hl⟩ : Fin 128)) (fun b hb => by
          match b with
          | ⟨0, _⟩ => rfl
          | ⟨1, _⟩ => exact absurd rfl hb) (by show 128 * 4 + l = 128 * 4 + l; rfl)).trans
      ((group_apply i x1 x2 x3 x4 x5 x6 4 (by decide) _ _ _ r (⟨l, hl⟩ : Fin 128) hj).trans
        (by rw [col_eq i (128 * 4 + l) hj 4 (by decide) (by omega)]))
  · exact (concatenate_apply_piece (1 : Fin 2) _ _ (ix2 r (⟨128 * 5 + l, hj⟩ : Fin 1024)) 5 (by simp) S1536x128 _ rfl rfl (128 * 5) rfl
        (ix2 r (⟨l, hl⟩ : Fin 128)) (fun b hb => by
          match b with
          | ⟨0, _⟩ => rfl
          | ⟨1, _⟩ => exact absurd rfl hb) (by show 128 * 5 + l = 128 * 5 + l; rfl)).trans
      ((group_apply i x1 x2 x3 x4 x5 x6 5 (by decide) _ _ _ r (⟨l, hl⟩ : Fin 128) hj).trans
        (by rw [col_eq i (128 * 5 + l) hj 5 (by decide) (by omega)]))
  · exact (concatenate_apply_piece (1 : Fin 2) _ _ (ix2 r (⟨128 * 6 + l, hj⟩ : Fin 1024)) 6 (by simp) S1536x128 _ rfl rfl (128 * 6) rfl
        (ix2 r (⟨l, hl⟩ : Fin 128)) (fun b hb => by
          match b with
          | ⟨0, _⟩ => rfl
          | ⟨1, _⟩ => exact absurd rfl hb) (by show 128 * 6 + l = 128 * 6 + l; rfl)).trans
      ((group_apply i x1 x2 x3 x4 x5 x6 6 (by decide) _ _ _ r (⟨l, hl⟩ : Fin 128) hj).trans
        (by rw [col_eq i (128 * 6 + l) hj 6 (by decide) (by omega)]))
  · exact (concatenate_apply_piece (1 : Fin 2) _ _ (ix2 r (⟨128 * 7 + l, hj⟩ : Fin 1024)) 7 (by simp) S1536x128 _ rfl rfl (128 * 7) rfl
        (ix2 r (⟨l, hl⟩ : Fin 128)) (fun b hb => by
          match b with
          | ⟨0, _⟩ => rfl
          | ⟨1, _⟩ => exact absurd rfl hb) (by show 128 * 7 + l = 128 * 7 + l; rfl)).trans
      ((group_apply i x1 x2 x3 x4 x5 x6 7 (by decide) _ _ _ r (⟨l, hl⟩ : Fin 128) hj).trans
        (by rw [col_eq i (128 * 7 + l) hj 7 (by decide) (by omega)]))

/-! The four axis facts of the block product's operand indices, and the product read at an index. -/

theorem lhs_blk_0 (i : S16x1536.Idx) (q : dot_S16x1024_S1536x1024_S16x1536_1_1_0_0_n_n.contr.Idx) :
    (dot_S16x1024_S1536x1024_S16x1536_1_1_0_0_n_n.lhsIdx i q 0).val = (i 0).val := by
  unfold DotDims.lhsIdx
  rw [dif_neg (show ¬(0 : Fin S16x1024.rank) ∈ dot_S16x1024_S1536x1024_S16x1536_1_1_0_0_n_n.lhsBatch by decide), dif_pos (show (0 : Fin S16x1024.rank) ∈ dot_S16x1024_S1536x1024_S16x1536_1_1_0_0_n_n.lhsNonContracting by decide)]
  rfl
theorem lhs_blk_1 (i : S16x1536.Idx) (q : dot_S16x1024_S1536x1024_S16x1536_1_1_0_0_n_n.contr.Idx) :
    (dot_S16x1024_S1536x1024_S16x1536_1_1_0_0_n_n.lhsIdx i q 1).val = (q ⟨0, by decide⟩).val :=
  dot_S16x1024_S1536x1024_S16x1536_1_1_0_0_n_n.lhsIdx_val_of_single rfl i q
theorem rhs_blk_0 (i : S16x1536.Idx) (q : dot_S16x1024_S1536x1024_S16x1536_1_1_0_0_n_n.contr.Idx) :
    (dot_S16x1024_S1536x1024_S16x1536_1_1_0_0_n_n.rhsIdx i q 0).val = (i 1).val := by
  unfold DotDims.rhsIdx
  rw [dif_neg (show ¬(0 : Fin S1536x1024.rank) ∈ dot_S16x1024_S1536x1024_S16x1536_1_1_0_0_n_n.rhsBatch by decide), dif_pos (show (0 : Fin S1536x1024.rank) ∈ dot_S16x1024_S1536x1024_S16x1536_1_1_0_0_n_n.rhsNonContracting by decide)]
  rfl
theorem rhs_blk_1 (i : S16x1536.Idx) (q : dot_S16x1024_S1536x1024_S16x1536_1_1_0_0_n_n.contr.Idx) :
    (dot_S16x1024_S1536x1024_S16x1536_1_1_0_0_n_n.rhsIdx i q 1).val = (q ⟨0, by decide⟩).val :=
  dot_S16x1024_S1536x1024_S16x1536_1_1_0_0_n_n.rhsIdx_val_of_single rfl i q

/-- The point's update at `(t, r)`: the accumulator there plus the row of `x` against the dequantised row `r`. -/
theorem upd_apply (i : grid0.Coords) (x0 : Vec Ideal S16x1024 .f32) (x1 : Vec Ideal S1536x1024 .f32)
    (x2 x3 x4 x5 x6 : Vec Ideal S1536x32 .f32) (acc : Vec Ideal S16x1536 .f32) (t : Fin 16) (r : Fin 1536) :
    upd i x0 x1 x2 x3 x4 x5 x6 acc (ix2 t r)
      = acc (ix2 t r) + ∑ j : Fin 1024, x0 (ix2 t j)
          * Cert.Quant.deq (x1 (ix2 r j)) (x2 (ix2 r (col i j.val j.isLt))) (x3 (ix2 r (col i j.val j.isLt)))
              (x4 (ix2 r (col i j.val j.isLt))) (x5 (ix2 r (col i j.val j.isLt))) (x6 (ix2 r (col i j.val j.isLt))) := by
  rw [upd_eq]
  unfold k0_pay1
  rw [shapeCast_self, addf_apply]
  congr 1
  refine (Ideal.matmul_constant_zero_apply dot_S16x1024_S1536x1024_S16x1536_1_1_0_0_n_n none _ _ (ix2 t r)).trans ?_
  rw [← Equiv.sum_comp (contrEquiv1 dot_S16x1024_S1536x1024_S16x1536_1_1_0_0_n_n 1024 rfl rfl).symm]
  refine Finset.sum_congr rfl fun j _ => ?_
  have hk := contrEquiv1_symm_val dot_S16x1024_S1536x1024_S16x1536_1_1_0_0_n_n 1024 rfl rfl j
  have el : dot_S16x1024_S1536x1024_S16x1536_1_1_0_0_n_n.lhsIdx (ix2 t r) ((contrEquiv1 dot_S16x1024_S1536x1024_S16x1536_1_1_0_0_n_n 1024 rfl rfl).symm j) = ix2 t j := funext fun a => Fin.ext (by
    match a with
    | ⟨0, _⟩ => exact lhs_blk_0 _ _
    | ⟨1, _⟩ => exact (lhs_blk_1 _ _).trans hk)
  have er : dot_S16x1024_S1536x1024_S16x1536_1_1_0_0_n_n.rhsIdx (ix2 t r) ((contrEquiv1 dot_S16x1024_S1536x1024_S16x1536_1_1_0_0_n_n 1024 rfl rfl).symm j) = ix2 r j := funext fun a => Fin.ext (by
    match a with
    | ⟨0, _⟩ => exact rhs_blk_0 _ _
    | ⟨1, _⟩ => exact (rhs_blk_1 _ _).trans hk)
  rw [el, er, truncf_apply, truncf_apply, wblk_apply]

end AtIdeal2

end Cert.KernelIdeal.Pt

end
-- ==== Proof.KernelPieces.lean ====
/-
  What each case of the body leaves, over the point's blocks.

  The body has two cases: at the first point of a row of blocks (`k = 0`) it clears the accumulator and then updates
  it; at the others it updates what the point before left. In both it then writes accumulator plus bias row to the
  output block. So the accumulator ends at `upd` of the blocks over zero (case A) or over the previous contents
  (case B), and the output block at that plus the bias.
-/
import proofs.«166592_j53850299957966_1_alg».proof.Proof.Gen.KernelIdeal.Frame
import proofs.«166592_j53850299957966_1_alg».proof.Proof.KernelPoint

set_option maxRecDepth 16384

noncomputable section

namespace Cert.KernelIdeal.Pt

open Cert.KernelIdeal Cert.KernelIdeal.Gen Idealize.ShloMosaic Idealize.ShloMosaic.TcCoe Idealize.ShloMosaic.Tactic
open Idealize.SL.Sem

variable {F : FTy → Type} [FloatOps F]

theorem hz2 : (![0, 0] : Fin 2 → ℕ) = fun _ => 0 := by funext a; fin_cases a <;> rfl

/-- A load of the whole buffer after a store of the whole buffer (whatever was stored before) reads what was stored. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Case A's accumulator: the update over zero. -/
theorem sout_A (c : Dev nD) (i : grid0.Coords) (arg2 : Memref sig .tc .vmem S16x1024 .f32) (harg2 : arg2.IsWhole) (arg3 : Memref sig .tc .vmem S1536x1024 .f32) (harg3 : arg3.IsWhole) (arg4 : Memref sig .tc .vmem S1536x32 .f32) (harg4 : arg4.IsWhole) (arg5 : Memref sig .tc .vmem S1536x32 .f32) (harg5 : arg5.IsWhole) (arg6 : Memref sig .tc .vmem S1536x32 .f32) (harg6 : arg6.IsWhole) (arg7 : Memref sig .tc .vmem S1536x32 .f32) (harg7 : arg7.IsWhole) (arg8 : Memref sig .tc .vmem S1536x32 .f32) (harg8 : arg8.IsWhole) (arg9 : Memref sig .tc .vmem S1x1536 .f32) (harg9 : arg9.IsWhole) (arg10 : Memref sig .tc .vmem S16x1536 .f32) (harg10 : arg10.IsWhole) (arg11 : Memref sig .tc .vmem S16x1536 .f32) (harg11 : arg11.IsWhole) (hc0 : cond0_0 i)
    (x0 : Vec F S16x1024 .f32) (x1 : Vec F S1536x1024 .f32) (x2 : Vec F S1536x32 .f32) (x3 : Vec F S1536x32 .f32) (x4 : Vec F S1536x32 .f32) (x5 : Vec F S1536x32 .f32) (x6 : Vec F S1536x32 .f32) (x7 : Vec F S1x1536 .f32) :
    sout0_A_0 c i arg2 harg2 arg3 harg3 arg4 harg4 arg5 harg5 arg6 harg6 arg7 harg7 arg8 harg8 arg9 harg9 arg10 harg10 arg11 harg11 hc0 x0 x1 x2 x3 x4 x5 x6 x7 = upd i x0 x1 x2 x3 x4 x5 x6 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S16x1536) hz2]
  simp only [View.readAt_eq_ld, harg2.read_unread, harg3.read_unread, harg4.read_unread, harg5.read_unread, harg6.read_unread, harg7.read_unread, harg8.read_unread, harg9.read_unread, harg11.read_unread, View.ld_unit_zero (S := S16x1024) hz2, View.ld_unit_zero (S := S1x1536) hz2, View.ld_unit_zero (S := S16x1536) hz2, readCov_cons_whole (S := S16x1536) _ hz2]
  rfl

/-- Case B's accumulator: the update over what the point before left. -/
theorem sout_B (c : Dev nD) (i : grid0.Coords) (arg2 : Memref sig .tc .vmem S16x1024 .f32) (harg2 : arg2.IsWhole) (arg3 : Memref sig .tc .vmem S1536x1024 .f32) (harg3 : arg3.IsWhole) (arg4 : Memref sig .tc .vmem S1536x32 .f32) (harg4 : arg4.IsWhole) (arg5 : Memref sig .tc .vmem S1536x32 .f32) (harg5 : arg5.IsWhole) (arg6 : Memref sig .tc .vmem S1536x32 .f32) (harg6 : arg6.IsWhole) (arg7 : Memref sig .tc .vmem S1536x32 .f32) (harg7 : arg7.IsWhole) (arg8 : Memref sig .tc .vmem S1536x32 .f32) (harg8 : arg8.IsWhole) (arg9 : Memref sig .tc .vmem S1x1536 .f32) (harg9 : arg9.IsWhole) (arg10 : Memref sig .tc .vmem S16x1536 .f32) (harg10 : arg10.IsWhole) (arg11 : Memref sig .tc .vmem S16x1536 .f32) (harg11 : arg11.IsWhole) (hc0 : ¬cond0_0 i)
    (x0 : Vec F S16x1024 .f32) (x1 : Vec F S1536x1024 .f32) (x2 : Vec F S1536x32 .f32) (x3 : Vec F S1536x32 .f32) (x4 : Vec F S1536x32 .f32) (x5 : Vec F S1536x32 .f32) (x6 : Vec F S1536x32 .f32) (x7 : Vec F S1x1536 .f32) (xs0 : Vec F S16x1536 .f32) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 = upd i x0 x1 x2 x3 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  sl_unfold_words
  rw [View.canon_unit_zero (S := S16x1536) hz2]
  simp only [View.readAt_eq_ld, harg2.read_unread, harg3.read_unread, harg4.read_unread, harg5.read_unread, harg6.read_unread, harg7.read_unread, harg8.read_unread, harg9.read_unread, harg11.read_unread, View.ld_unit_zero (S := S16x1024) hz2, View.ld_unit_zero (S := S1x1536) hz2, View.ld_unit_zero (S := S16x1536) hz2, readCov_cons_whole (S := S16x1536) _ hz2]
  rfl

/-- Case A's output block: the updated accumulator plus the bias row. -/
theorem out_A (c : Dev nD) (i : grid0.Coords) (arg2 : Memref sig .tc .vmem S16x1024 .f32) (harg2 : arg2.IsWhole) (arg3 : Memref sig .tc .vmem S1536x1024 .f32) (harg3 : arg3.IsWhole) (arg4 : Memref sig .tc .vmem S1536x32 .f32) (harg4 : arg4.IsWhole) (arg5 : Memref sig .tc .vmem S1536x32 .f32) (harg5 : arg5.IsWhole) (arg6 : Memref sig .tc .vmem S1536x32 .f32) (harg6 : arg6.IsWhole) (arg7 : Memref sig .tc .vmem S1536x32 .f32) (harg7 : arg7.IsWhole) (arg8 : Memref sig .tc .vmem S1536x32 .f32) (harg8 : arg8.IsWhole) (arg9 : Memref sig .tc .vmem S1x1536 .f32) (harg9 : arg9.IsWhole) (arg10 : Memref sig .tc .vmem S16x1536 .f32) (harg10 : arg10.IsWhole) (arg11 : Memref sig .tc .vmem S16x1536 .f32) (harg11 : arg11.IsWhole) (hc0 : cond0_0 i)
    (x0 : Vec F S16x1024 .f32) (x1 : Vec F S1536x1024 .f32) (x2 : Vec F S1536x32 .f32) (x3 : Vec F S1536x32 .f32) (x4 : Vec F S1536x32 .f32) (x5 : Vec F S1536x32 .f32) (x6 : Vec F S1536x32 .f32) (x7 : Vec F S1x1536 .f32) :
    out0_A_8 c i arg2 harg2 arg3 harg3 arg4 harg4 arg5 harg5 arg6 harg6 arg7 harg7 arg8 harg8 arg9 harg9 arg10 harg10 arg11 harg11 hc0 x0 x1 x2 x3 x4 x5 x6 x7 = k0_pay2 (upd i x0 x1 x2 x3 x4 x5 x6 k0_pay3) x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero (S := S16x1536) hz2]
  simp only [View.readAt_eq_ld, harg2.read_unread, harg3.read_unread, harg4.read_unread, harg5.read_unread, harg6.read_unread, harg7.read_unread, harg8.read_unread, harg9.read_unread, harg11.read_unread, View.ld_unit_zero (S := S16x1024) hz2, View.ld_unit_zero (S := S1x1536) hz2, View.ld_unit_zero (S := S16x1536) hz2, readCov_cons_whole (S := S16x1536) _ hz2]
  rfl

/-- Case B's output block. -/
theorem out_B (c : Dev nD) (i : grid0.Coords) (arg2 : Memref sig .tc .vmem S16x1024 .f32) (harg2 : arg2.IsWhole) (arg3 : Memref sig .tc .vmem S1536x1024 .f32) (harg3 : arg3.IsWhole) (arg4 : Memref sig .tc .vmem S1536x32 .f32) (harg4 : arg4.IsWhole) (arg5 : Memref sig .tc .vmem S1536x32 .f32) (harg5 : arg5.IsWhole) (arg6 : Memref sig .tc .vmem S1536x32 .f32) (harg6 : arg6.IsWhole) (arg7 : Memref sig .tc .vmem S1536x32 .f32) (harg7 : arg7.IsWhole) (arg8 : Memref sig .tc .vmem S1536x32 .f32) (harg8 : arg8.IsWhole) (arg9 : Memref sig .tc .vmem S1x1536 .f32) (harg9 : arg9.IsWhole) (arg10 : Memref sig .tc .vmem S16x1536 .f32) (harg10 : arg10.IsWhole) (arg11 : Memref sig .tc .vmem S16x1536 .f32) (harg11 : arg11.IsWhole) (hc0 : ¬cond0_0 i)
    (x0 : Vec F S16x1024 .f32) (x1 : Vec F S1536x1024 .f32) (x2 : Vec F S1536x32 .f32) (x3 : Vec F S1536x32 .f32) (x4 : Vec F S1536x32 .f32) (x5 : Vec F S1536x32 .f32) (x6 : Vec F S1536x32 .f32) (x7 : Vec F S1x1536 .f32) (xs0 : Vec F S16x1536 .f32) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 = k0_pay2 (upd i x0 x1 x2 x3 x4 x5 x6 xs0) x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  sl_unfold_words
  rw [View.canon_unit_zero (S := S16x1536) hz2]
  simp only [View.readAt_eq_ld, harg2.read_unread, harg3.read_unread, harg4.read_unread, harg5.read_unread, harg6.read_unread, harg7.read_unread, harg8.read_unread, harg9.read_unread, harg11.read_unread, View.ld_unit_zero (S := S16x1024) hz2, View.ld_unit_zero (S := S1x1536) hz2, View.ld_unit_zero (S := S16x1536) hz2, readCov_cons_whole (S := S16x1536) _ hz2]
  rfl

end Cert.KernelIdeal.Pt

end
-- ==== Proof.KernelBlocks.lean ====
/-
  The windows' blocks, read at an entry.

  The grid is 8 × 4, run row-major: point `t` (of 32) has coordinates `(t / 4, t % 4)`. The first coordinate picks a
  slab of 1536 output features, the second a slab of 1024 input features. So at point `t`

    * the activations' block holds columns `1024 (t % 4) + j`, `j < 1024`, of all 16 rows;
    * the weights' block holds rows `1536 (t / 4) + r`, `r < 1536`, at those columns;
    * each parameter's block holds rows `1536 (t / 4) + r` and all 32 columns of the parameter viewed as [12288, 32];
      the view is row-major, so its entry `(o, g)` is entry `(32 o + g, 0)` of the [393216, 1] column;
    * the bias's block holds columns `1536 (t / 4) + r` of the bias viewed as [1, 12288], whose entry `(0, o)` is
      entry `o` of the bias.

  A block's entry `y` sits in its array at `index × block size + y` on every axis; the index maps are evaluated once
  over the 32 points.
-/
import proofs.«166592_j53850299957966_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blk

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-! ## The grid -/

/-- There are 32 grid points. -/
theorem lt32 (t : Fin cfg0.N) : t.val < 32 := Nat.lt_of_lt_of_eq t.isLt N_0

/-- The first coordinate of point `t`: its slab of output features. -/
theorem coord0 (t : Fin cfg0.N) : (grid0.coords t 0).val = t.val / 4 :=
  (by decide +kernel : ∀ t : Fin grid0.N, (grid0.coords t 0).val = t.val / 4) t

/-- The second coordinate of point `t`: its slab of input features. -/
theorem coord1 (t : Fin cfg0.N) : (grid0.coords t 1).val = t.val % 4 :=
  (by decide +kernel : ∀ t : Fin grid0.N, (grid0.coords t 1).val = t.val % 4) t

/-! ## The index maps over the grid -/

/-- Window 0 (the activations) is indexed by the input slab alone. -/
theorem index_x : ∀ t : Fin cfg0.N, win0_0.index t (0 : Fin 2) = 0 ∧ win0_0.index t (1 : Fin 2) = t.val % 4 :=
  (by decide +kernel : ∀ t : Fin grid0.N, win0_0.index t (0 : Fin 2) = 0 ∧ win0_0.index t (1 : Fin 2) = t.val % 4)

/-- Window 1 (the weights) is indexed by both slabs. -/
theorem index_w : ∀ t : Fin cfg0.N, win0_1.index t (0 : Fin 2) = t.val / 4 ∧ win0_1.index t (1 : Fin 2) = t.val % 4 :=
  (by decide +kernel : ∀ t : Fin grid0.N, win0_1.index t (0 : Fin 2) = t.val / 4 ∧ win0_1.index t (1 : Fin 2) = t.val % 4)

/-- Window 2 (the scale's view) is indexed by the output slab alone. -/
theorem index_p2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

/-- Window 3 (the zero point's view) is indexed by the output slab alone. -/
theorem index_p3 : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)

/-- Window 4 (the shift's view) is indexed by the output slab alone. -/
theorem index_p4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)

/-- Window 5 (the lower scale bound's view) is indexed by the output slab alone. -/
theorem index_p5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- Window 6 (the upper scale bound's view) is indexed by the output slab alone. -/
theorem index_p6 : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)

/-- Window 7 (the bias's view) is indexed by the output slab, along its second axis. -/
theorem index_b : ∀ t : Fin cfg0.N, win0_7.index t (0 : Fin 2) = 0 ∧ win0_7.index t (1 : Fin 2) = t.val / 4 :=
  (by decide +kernel : ∀ t : Fin grid0.N, win0_7.index t (0 : Fin 2) = 0 ∧ win0_7.index t (1 : Fin 2) = t.val / 4)

/-! ## The views, at an entry -/

/-- The [12288, 32] view of a [393216, 1] column: entry `(o, g)` is the column's entry `32 o + g`. -/
theorem view_param {α : Type} (x : S393216x1.Idx → α) (h : S393216x1.ShapeCasts S12288x32) (j : S12288x32.Idx)
    (n : Fin 393216) (hn : n.val = (j 0).val * 32 + (j 1).val) :
    shapeCast S12288x32 x h j = x (ix2 n (0 : Fin 1)) := by
  refine shapeCast_apply x h j (ix2 n (0 : Fin 1)) ?_
  rw [Shape.rowMajor_val_two, Shape.rowMajor_val_two]
  show n.val * 1 + 0 = (j 0).val * 32 + (j 1).val
  omega

/-- The [1, 12288] view of a vector of 12288: entry `(0, o)` is the vector's entry `o`. -/
theorem view_bias {α : Type} (x : S12288.Idx → α) (h : S12288.ShapeCasts S1x12288) (j : S1x12288.Idx)
    (n : Fin 12288) (hn : n.val = (j 1).val) :
    shapeCast S1x12288 x h j = x (ix1 n) := by
  have h0 : (j 0).val < 1 := (j 0).isLt
  refine shapeCast_apply x h j (ix1 n) ?_
  rw [Shape.rowMajor_val_one, Shape.rowMajor_val_two]
  show n.val = (j 0).val * 12288 + (j 1).val
  omega

/-! ## The viewed arrays when the grid starts -/

/-- When the grid starts, the scale's [12288, 32] array is the view of the scale column. -/
theorem V_v0 (c : Dev nD) : (V m c main_v0 : S12288x32.Idx → Elt F .f32)
    = shapeCast S12288x32 (m ((c : Thread nD τ).loc main_arg3)) shapeCasts_S393216x1_S12288x32 := by
  dsimp only [Gen.V, Gen.hostOps0]; after_results; rfl

/-- When the grid starts, the zero point's [12288, 32] array is the view of the zero point column. -/
theorem V_v1 (c : Dev nD) : (V m c main_v1 : S12288x32.Idx → Elt F .f32)
    = shapeCast S12288x32 (m ((c : Thread nD τ).loc main_arg4)) shapeCasts_S393216x1_S12288x32 := by
  dsimp only [Gen.V, Gen.hostOps0]; after_results; rfl

/-- When the grid starts, the shift's [12288, 32] array is the view of the shift column. -/
theorem V_v2 (c : Dev nD) : (V m c main_v2 : S12288x32.Idx → Elt F .f32)
    = shapeCast S12288x32 (m ((c : Thread nD τ).loc main_arg5)) shapeCasts_S393216x1_S12288x32 := by
  dsimp only [Gen.V, Gen.hostOps0]; after_results; rfl

/-- When the grid starts, the lower scale bound's [12288, 32] array is the view of the lower scale bound column. -/
theorem V_v3 (c : Dev nD) : (V m c main_v3 : S12288x32.Idx → Elt F .f32)
    = shapeCast S12288x32 (m ((c : Thread nD τ).loc main_arg6)) shapeCasts_S393216x1_S12288x32 := by
  dsimp only [Gen.V, Gen.hostOps0]; after_results; rfl

/-- When the grid starts, the upper scale bound's [12288, 32] array is the view of the upper scale bound column. -/
theorem V_v4 (c : Dev nD) : (V m c main_v4 : S12288x32.Idx → Elt F .f32)
    = shapeCast S12288x32 (m ((c : Thread nD τ).loc main_arg7)) shapeCasts_S393216x1_S12288x32 := by
  dsimp only [Gen.V, Gen.hostOps0]; after_results; rfl

/-- When the grid starts, the [1, 12288] array is the view of the bias. -/
theorem V_v5 (c : Dev nD) : (V m c main_v5 : S1x12288.Idx → Elt F .f32)
    = shapeCast S1x12288 (m ((c : Thread nD τ).loc main_arg2)) shapeCasts_S12288_S1x12288 := by
  dsimp only [Gen.V, Gen.hostOps0]; after_results; rfl

/-! ## The blocks -/

/-- The activations' block at point `t`: all 16 rows, columns `1024 (t % 4) + j`. -/
theorem blk0_apply (c : Dev nD) (t : Fin cfg0.N) (a : Fin 16) (j : Fin 1024) :
    (iblk m c 0 t : Vec F S16x1024 .f32) (ix2 a j)
      = m ((c : Thread nD τ).loc main_arg0) (ix2 a (⟨1024 * (t.val % 4) + j.val, by have := j.isLt; omega⟩ : Fin 4096)) := by
  have hi := index_x t
  unfold iblk
  rw [View.read_apply]
  show V m c main_arg0 _ = _
  rw [V_main_arg0]
  congr 1
  funext b
  apply Fin.ext
  match b with
  | ⟨0, _⟩ => show win0_0.index t 0 * 16 + 1 * a.val = a.val; rw [hi.1]; omega
  | ⟨1, _⟩ => show win0_0.index t 1 * 1024 + 1 * j.val = 1024 * (t.val % 4) + j.val; rw [hi.2]; omega

/-- The weights' block at point `t`: rows `1536 (t / 4) + r`, columns `1024 (t % 4) + j`. -/
theorem blk1_apply (c : Dev nD) (t : Fin cfg0.N) (r : Fin 1536) (j : Fin 1024) :
    (iblk m c 1 t : Vec F S1536x1024 .f32) (ix2 r j)
      = m ((c : Thread nD τ).loc main_arg1) (ix2 (⟨1536 * (t.val / 4) + r.val, by have := lt32 t; have := r.isLt; omega⟩ : Fin 12288)
          (⟨1024 * (t.val % 4) + j.val, by have := j.isLt; omega⟩ : Fin 4096)) := by
  have hi := index_w t
  unfold iblk
  rw [View.read_apply]
  show V m c main_arg1 _ = _
  rw [V_main_arg1]
  congr 1
  funext b
  apply Fin.ext
  match b with
  | ⟨0, _⟩ => show win0_1.index t 0 * 1536 + 1 * r.val = 1536 * (t.val / 4) + r.val; rw [hi.1]; omega
  | ⟨1, _⟩ => show win0_1.index t 1 * 1024 + 1 * j.val = 1024 * (t.val % 4) + j.val; rw [hi.2]; omega

/-- The scale's block at point `t`: rows `1536 (t / 4) + r` of the view, all 32 columns. -/
theorem blk2_apply (c : Dev nD) (t : Fin cfg0.N) (r : Fin 1536) (g : Fin 32) :
    (iblk m c 2 t : Vec F S1536x32 .f32) (ix2 r g)
      = m ((c : Thread nD τ).loc main_arg3) (ix2 (⟨(1536 * (t.val / 4) + r.val) * 32 + g.val, by have := lt32 t; have := r.isLt; have := g.isLt; omega⟩ : Fin 393216) (0 : Fin 1)) := by
  have hi := index_p2 t
  unfold iblk
  rw [View.read_apply]
  show V m c main_v0 _ = _
  refine (congrFun (V_v0 m c) _).trans (view_param _ _ _ _ ?_)
  show (1536 * (t.val / 4) + r.val) * 32 + g.val = (win0_2.index t 0 * 1536 + 1 * r.val) * 32 + (win0_2.index t 1 * 32 + 1 * g.val)
  rw [hi.1, hi.2]; omega

/-- The zero point's block at point `t`: rows `1536 (t / 4) + r` of the view, all 32 columns. -/
theorem blk3_apply (c : Dev nD) (t : Fin cfg0.N) (r : Fin 1536) (g : Fin 32) :
    (iblk m c 3 t : Vec F S1536x32 .f32) (ix2 r g)
      = m ((c : Thread nD τ).loc main_arg4) (ix2 (⟨(1536 * (t.val / 4) + r.val) * 32 + g.val, by have := lt32 t; have := r.isLt; have := g.isLt; omega⟩ : Fin 393216) (0 : Fin 1)) := by
  have hi := index_p3 t
  unfold iblk
  rw [View.read_apply]
  show V m c main_v1 _ = _
  refine (congrFun (V_v1 m c) _).trans (view_param _ _ _ _ ?_)
  show (1536 * (t.val / 4) + r.val) * 32 + g.val = (win0_3.index t 0 * 1536 + 1 * r.val) * 32 + (win0_3.index t 1 * 32 + 1 * g.val)
  rw [hi.1, hi.2]; omega

/-- The shift's block at point `t`: rows `1536 (t / 4) + r` of the view, all 32 columns. -/
theorem blk4_apply (c : Dev nD) (t : Fin cfg0.N) (r : Fin 1536) (g : Fin 32) :
    (iblk m c 4 t : Vec F S1536x32 .f32) (ix2 r g)
      = m ((c : Thread nD τ).loc main_arg5) (ix2 (⟨(1536 * (t.val / 4) + r.val) * 32 + g.val, by have := lt32 t; have := r.isLt; have := g.isLt; omega⟩ : Fin 393216) (0 : Fin 1)) := by
  have hi := index_p4 t
  unfold iblk
  rw [View.read_apply]
  show V m c main_v2 _ = _
  refine (congrFun (V_v2 m c) _).trans (view_param _ _ _ _ ?_)
  show (1536 * (t.val / 4) + r.val) * 32 + g.val = (win0_4.index t 0 * 1536 + 1 * r.val) * 32 + (win0_4.index t 1 * 32 + 1 * g.val)
  rw [hi.1, hi.2]; omega

/-- The lower scale bound's block at point `t`: rows `1536 (t / 4) + r` of the view, all 32 columns. -/
theorem blk5_apply (c : Dev nD) (t : Fin cfg0.N) (r : Fin 1536) (g : Fin 32) :
    (iblk m c 5 t : Vec F S1536x32 .f32) (ix2 r g)
      = m ((c : Thread nD τ).loc main_arg6) (ix2 (⟨(1536 * (t.val / 4) + r.val) * 32 + g.val, by have := lt32 t; have := r.isLt; have := g.isLt; omega⟩ : Fin 393216) (0 : Fin 1)) := by
  have hi := index_p5 t
  unfold iblk
  rw [View.read_apply]
  show V m c main_v3 _ = _
  refine (congrFun (V_v3 m c) _).trans (view_param _ _ _ _ ?_)
  show (1536 * (t.val / 4) + r.val) * 32 + g.val = (win0_5.index t 0 * 1536 + 1 * r.val) * 32 + (win0_5.index t 1 * 32 + 1 * g.val)
  rw [hi.1, hi.2]; omega

/-- The upper scale bound's block at point `t`: rows `1536 (t / 4) + r` of the view, all 32 columns. -/
theorem blk6_apply (c : Dev nD) (t : Fin cfg0.N) (r : Fin 1536) (g : Fin 32) :
    (iblk m c 6 t : Vec F S1536x32 .f32) (ix2 r g)
      = m ((c : Thread nD τ).loc main_arg7) (ix2 (⟨(1536 * (t.val / 4) + r.val) * 32 + g.val, by have := lt32 t; have := r.isLt; have := g.isLt; omega⟩ : Fin 393216) (0 : Fin 1)) := by
  have hi := index_p6 t
  unfold iblk
  rw [View.read_apply]
  show V m c main_v4 _ = _
  refine (congrFun (V_v4 m c) _).trans (view_param _ _ _ _ ?_)
  show (1536 * (t.val / 4) + r.val) * 32 + g.val = (win0_6.index t 0 * 1536 + 1 * r.val) * 32 + (win0_6.index t 1 * 32 + 1 * g.val)
  rw [hi.1, hi.2]; omega

/-- The bias's block at point `t`: columns `1536 (t / 4) + r` of the view's one row. -/
theorem blk7_apply (c : Dev nD) (t : Fin cfg0.N) (r : Fin 1536) :
    (iblk m c 7 t : Vec F S1x1536 .f32) (ix2 (0 : Fin 1) r)
      = m ((c : Thread nD τ).loc main_arg2) (ix1 (⟨1536 * (t.val / 4) + r.val, by have := lt32 t; have := r.isLt; omega⟩ : Fin 12288)) := by
  have hi := index_b t
  unfold iblk
  rw [View.read_apply]
  show V m c main_v5 _ = _
  refine (congrFun (V_v5 m c) _).trans (view_bias _ _ _ _ ?_)
  show 1536 * (t.val / 4) + r.val = win0_7.index t 1 * 1536 + 1 * r.val
  rw [hi.2]; omega

end Cert.KernelIdeal.Blk

end
-- ==== Proof.KernelOut.lean ====
/-
  The output window.

  The output [16, 12288] is written in blocks [16, 1536]: block `t / 4` along the second axis at grid point `t`, all
  16 rows. The four points of a grid row share one block and only the last of them, `t % 4 = 3`, writes it back.
  Entry `(a, r)` of the block at point `t` is entry `(a, 1536 (t / 4) + r)` of the array, and every entry `(a, o)` of
  the array lies in the block written back at point `4 (o / 1536) + 3`: the eight written blocks cover the array.
-/
import proofs.«166592_j53850299957966_1_alg».proof.Proof.KernelBlocks

noncomputable section

namespace Cert.KernelIdeal.Blk

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-- Window 8 (the output) is indexed by the output slab alone, along its second axis. -/
theorem index_o : ∀ t : Fin cfg0.N, win0_8.index t (0 : Fin 2) = 0 ∧ win0_8.index t (1 : Fin 2) = t.val / 4 :=
  (by decide +kernel : ∀ t : Fin grid0.N, win0_8.index t (0 : Fin 2) = 0 ∧ win0_8.index t (1 : Fin 2) = t.val / 4)

/-- Where entry `(a, r)` of the output block at point `t` sits in the array. -/
theorem out_emb (t : Fin cfg0.N) (a : Fin 16) (r : Fin 1536) :
    ((cfg0.win 8).blk t).view.emb (ix2 a r)
      = ix2 a (⟨1536 * (t.val / 4) + r.val, by have := lt32 t; have := r.isLt; omega⟩ : Fin 12288) := by
  have hi := index_o t
  funext b
  apply Fin.ext
  match b with
  | ⟨0, _⟩ => show win0_8.index t 0 * 16 + 1 * a.val = a.val; rw [hi.1]; omega
  | ⟨1, _⟩ => show win0_8.index t 1 * 1536 + 1 * r.val = 1536 * (t.val / 4) + r.val; rw [hi.2]; omega

/-- An entry of the array is in the output block at point `t` iff each coordinate is in the block's range. -/
theorem mem_out (t : Fin cfg0.N) (i : S16x12288.Idx) :
    i ∈ ((cfg0.win 8).blk t).view.set
      ↔ ∀ a : Fin 2, win0_8.index t a * S16x1536.size a ≤ (i a).val
          ∧ (i a).val < win0_8.index t a * S16x1536.size a + S16x1536.size a := by
  show i ∈ ((View.whole main_v6).slice (win0_8.rect t)).set ↔ _
  rw [View.set_slice_whole, Rect.mem_set_unit]
  exact Iff.rfl

/-- Every entry of the output lies in a block that is written back. -/
theorem cover8 (i : S16x12288.Idx) :
    ∃ t : Fin cfg0.N, (cfg0.win 8).flush t = true ∧ i ∈ ((cfg0.win 8).blk t).view.set := by
  have hi0 : (i 0).val < 16 := (i 0).isLt
  have hi1 : (i 1).val < 12288 := (i 1).isLt
  have hN : 4 * ((i 1).val / 1536) + 3 < cfg0.N := Nat.lt_of_lt_of_eq (by omega) N_0.symm
  have hq : (4 * ((i 1).val / 1536) + 3) / 4 = (i 1).val / 1536 := by omega
  have hm : (4 * ((i 1).val / 1536) + 3) % 4 = 3 := by omega
  refine ⟨⟨4 * ((i 1).val / 1536) + 3, hN⟩, (flush0_8 _).2 hm, ?_⟩
  rw [mem_out]
  have hi := index_o ⟨4 * ((i 1).val / 1536) + 3, hN⟩
  intro a
  match a with
  | ⟨0, _⟩ =>
    show win0_8.index ⟨4 * ((i 1).val / 1536) + 3, hN⟩ (0 : Fin 2) * 16 ≤ (i 0).val
      ∧ (i 0).val < win0_8.index ⟨4 * ((i 1).val / 1536) + 3, hN⟩ (0 : Fin 2) * 16 + 16
    rw [hi.1]; omega
  | ⟨1, _⟩ =>
    show win0_8.index ⟨4 * ((i 1).val / 1536) + 3, hN⟩ (1 : Fin 2) * 1536 ≤ (i 1).val
      ∧ (i 1).val < win0_8.index ⟨4 * ((i 1).val / 1536) + 3, hN⟩ (1 : Fin 2) * 1536 + 1536
    rw [hi.2, hq]; omega

end Cert.KernelIdeal.Blk

end
-- ==== Proof.QuantSpec.lean ====
/-
  The quantised linear layer as one function of its arguments.

  `X` is [16, 4096], `W` is [12288, 4096], the bias `b` is [12288], and the five group parameters (scale `a`, zero
  point `z`, shift `dz`, bounds `lo`, `hi`) are columns [393216, 1]: one row per group of 128 consecutive weights of
  a row of `W`, so weight `(o, d)` belongs to group `32 * o + d / 128`. The result is

      out (t, o) = (∑ d, X (t, d) * deq (W (o, d)) (the parameters of its group)) + b o.

  The contraction is also given as a partial sum over the first `n` terms (`part`), so that a sum accumulated one block
  of 1024 terms at a time can be compared with it: `part_add_block` adds one block, `part_full` is the whole sum.
-/
import proofs.«166592_j53850299957966_1_alg».proof.Proof.QuantElem
import Idealize.ShloMosaic.Lib.ValueIdx

noncomputable section

namespace Cert.Quant

open Idealize.ShloMosaic Idealize.ShloMosaic.ValueIdx
open scoped BigOperators

abbrev SX : Shape := ⟨2, ![16, 4096]⟩
abbrev SW : Shape := ⟨2, ![12288, 4096]⟩
abbrev SB : Shape := ⟨1, ![12288]⟩
abbrev SP : Shape := ⟨2, ![393216, 1]⟩
abbrev SO : Shape := ⟨2, ![16, 12288]⟩

/-- The parameter row of the group that weight `(o, d)` belongs to. -/
def grp (o : Fin 12288) (d : Fin 4096) : SP.Idx :=
  ix2 (⟨o.val * 32 + d.val / 128, by have := o.isLt; have := d.isLt; omega⟩ : Fin 393216) (0 : Fin 1)

/-- The dequantised weight `(o, d)`. -/
def wdq (W : SW.Idx → EReal) (a z dz lo hi : SP.Idx → EReal) (o : Fin 12288) (d : Fin 4096) : EReal :=
  deq (W (ix2 o d)) (a (grp o d)) (z (grp o d)) (dz (grp o d)) (lo (grp o d)) (hi (grp o d))

/-- Term `d` of the contraction for output `(t, o)`, as a function of a natural number (`0` past the extent). -/
def term (X : SX.Idx → EReal) (W : SW.Idx → EReal) (a z dz lo hi : SP.Idx → EReal) (t : Fin 16) (o : Fin 12288)
    (d : ℕ) : EReal :=
  if h : d < 4096 then X (ix2 t ⟨d, h⟩) * wdq W a z dz lo hi o ⟨d, h⟩ else 0

/-- The contraction's first `n` terms. -/
def part (X : SX.Idx → EReal) (W : SW.Idx → EReal) (a z dz lo hi : SP.Idx → EReal) (t : Fin 16) (o : Fin 12288)
    (n : ℕ) : EReal :=
  ∑ d ∈ Finset.range n, term X W a z dz lo hi t o d

/-- The layer's result. -/
def G (X : SX.Idx → EReal) (W : SW.Idx → EReal) (b : SB.Idx → EReal) (a z dz lo hi : SP.Idx → EReal) :
    SO.Idx → EReal := fun i =>
  part X W a z dz lo hi (i 0) (i 1) 4096 + b (ix1 (i 1))

variable (X : SX.Idx → EReal) (W : SW.Idx → EReal) (a z dz lo hi : SP.Idx → EReal) (t : Fin 16) (o : Fin 12288)

theorem part_zero : part X W a z dz lo hi t o 0 = 0 := by
  unfold part; rw [Finset.range_zero, Finset.sum_empty]

/-- One more block of 1024 terms. -/
theorem part_add_block (k : ℕ) (hk : 1024 * k + 1024 ≤ 4096) :
    part X W a z dz lo hi t o (1024 * k + 1024)
      = part X W a z dz lo hi t o (1024 * k)
        + ∑ j : Fin 1024, X (ix2 t ⟨1024 * k + j.val, by have := j.isLt; omega⟩)
            * wdq W a z dz lo hi o ⟨1024 * k + j.val, by have := j.isLt; omega⟩ := by
  unfold part
  rw [Finset.sum_range_add, ← Fin.sum_univ_eq_sum_range (fun x => term X W a z dz lo hi t o (1024 * k + x)) 1024]
  congr 1
  refine Finset.sum_congr rfl fun j _ => ?_
  unfold term
  rw [dif_pos (by have := j.isLt; omega)]

/-- All 4096 terms: the whole contraction. -/
theorem part_full :
    part X W a z dz lo hi t o 4096 = ∑ d : Fin 4096, X (ix2 t d) * wdq W a z dz lo hi o d := by
  unfold part
  rw [← Fin.sum_univ_eq_sum_range (fun x => term X W a z dz lo hi t o x) 4096]
  refine Finset.sum_congr rfl fun d _ => ?_
  unfold term
  rw [dif_pos d.isLt]

end Cert.Quant

end
-- ==== Proof.KernelValue.lean ====
/-
  The kernel's result array, as the layer of its arguments.

  Along a row of four grid points (one slab of 1536 output features, the four slabs of 1024 input features in turn)
  the accumulator is cleared and then receives one block product per point, so after point `t` it holds at `(a, r)`
  the first `1024 (t % 4 + 1)` terms of the contraction for output feature `1536 (t / 4) + r` (`scratch_at`, by
  induction on the point). The last point of the row writes accumulator plus bias to the output block, which is
  therefore the layer's result on that slab (`out_point`); the 8 slabs cover the output array (`final`).
-/
import proofs.«166592_j53850299957966_1_alg».proof.Proof.Gen.KernelIdeal.Value
import proofs.«166592_j53850299957966_1_alg».proof.Proof.KernelPieces
import proofs.«166592_j53850299957966_1_alg».proof.Proof.KernelBlocks
import proofs.«166592_j53850299957966_1_alg».proof.Proof.KernelOut
import proofs.«166592_j53850299957966_1_alg».proof.Proof.QuantSpec
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Cert.KernelIdeal.Pt Cert.KernelIdeal.Blk Cert.Quant
open Idealize.ShloMosaic.Pipeline (Dat)
open scoped BigOperators

variable (m : (ℓ : Loc nD τ sig) → Buf (Elt Ideal) ℓ) (ρ : Dev nD → PrngReg)

/-- The device's argument arrays. -/
abbrev aX (c : Dev nD) : SX.Idx → EReal := m ((c : Thread nD τ).loc main_arg0)
abbrev aW (c : Dev nD) : SW.Idx → EReal := m ((c : Thread nD τ).loc main_arg1)
abbrev aB (c : Dev nD) : SB.Idx → EReal := m ((c : Thread nD τ).loc main_arg2)
abbrev aS (c : Dev nD) : SP.Idx → EReal := m ((c : Thread nD τ).loc main_arg3)
abbrev aZ (c : Dev nD) : SP.Idx → EReal := m ((c : Thread nD τ).loc main_arg4)
abbrev aD (c : Dev nD) : SP.Idx → EReal := m ((c : Thread nD τ).loc main_arg5)
abbrev aL (c : Dev nD) : SP.Idx → EReal := m ((c : Thread nD τ).loc main_arg6)
abbrev aH (c : Dev nD) : SP.Idx → EReal := m ((c : Thread nD τ).loc main_arg7)

/-- The layer's result over them. -/
abbrev result (c : Dev nD) : SO.Idx → EReal :=
  G (aX m c) (aW m c) (aB m c) (aS m c) (aZ m c) (aD m c) (aL m c) (aH m c)

/-- The output feature of row `r` of point `t`'s slab, and the input feature of its column `j`. -/
def orow (t : Fin cfg0.N) (r : Fin 1536) : Fin 12288 :=
  ⟨1536 * (t.val / 4) + r.val, by have := lt32 t; have := r.isLt; omega⟩
def dcol (t : Fin cfg0.N) (j : Fin 1024) : Fin 4096 :=
  ⟨1024 * (t.val % 4) + j.val, by have := j.isLt; omega⟩

/-- The point's update over the argument arrays: the accumulator plus the point's 1024 terms of the contraction. -/
theorem upd_point (c : Dev nD) (t : Fin cfg0.N) (acc : Vec Ideal S16x1536 .f32) (a : Fin 16) (r : Fin 1536) :
    upd (grid0.coords t) (iblk m c 0 t) (iblk m c 1 t) (iblk m c 2 t) (iblk m c 3 t) (iblk m c 4 t) (iblk m c 5 t) (iblk m c 6 t) acc (ix2 a r)
      = acc (ix2 a r) + ∑ j : Fin 1024, aX m c (ix2 a (dcol t j)) * wdq (aW m c) (aS m c) (aZ m c) (aD m c) (aL m c) (aH m c) (orow t r) (dcol t j) := by
  refine (upd_apply (grid0.coords t) (iblk m c 0 t) (iblk m c 1 t) (iblk m c 2 t) (iblk m c 3 t) (iblk m c 4 t) (iblk m c 5 t) (iblk m c 6 t) acc a r).trans ?_
  congr 1
  refine Finset.sum_congr rfl fun j _ => ?_
  have hg : ∀ (h : (1536 * (t.val / 4) + r.val) * 32 + (col (grid0.coords t) j.val j.isLt).val < 393216),
      (ix2 (⟨(1536 * (t.val / 4) + r.val) * 32 + (col (grid0.coords t) j.val j.isLt).val, h⟩ : Fin 393216) (0 : Fin 1))
        = grp (orow t r) (dcol t j) := fun h => by
    unfold grp
    congr 1
    apply Fin.ext
    show (1536 * (t.val / 4) + r.val) * 32 + (8 * (grid0.coords t 1).val + j.val / 128)
      = (1536 * (t.val / 4) + r.val) * 32 + (1024 * (t.val % 4) + j.val) / 128
    rw [coord1 t]; omega
  rw [blk0_apply m c t a j, blk1_apply m c t r j, blk2_apply m c t r _, blk3_apply m c t r _, blk4_apply m c t r _,
    blk5_apply m c t r _, blk6_apply m c t r _, hg]
  rfl

/-- The zero the accumulator is cleared to. -/
theorem pay3_apply (j : S16x1536.Idx) : (k0_pay3 (F := Ideal)) j = 0 := by
  unfold k0_pay3
  rw [shapeCast_self]
  exact Ideal.ofBits_zero_f32

/-- At a row's first point the accumulator is the point's terms alone. -/
theorem scratch_first (c : Dev nD) (t : Fin cfg0.N) (h0 : t.val % 4 = 0) (a : Fin 16) (r : Fin 1536) :
    (outsAt0 m c t.val t.isLt).2 (ix2 a r)
      = 0 + ∑ j : Fin 1024, aX m c (ix2 a (dcol t j)) * wdq (aW m c) (aS m c) (aZ m c) (aD m c) (aL m c) (aH m c) (orow t r) (dcol t j) := by
  rw [outsAt0_A m c t h0]
  dsimp only
  rw [sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)]
  refine (upd_point m c t (k0_pay3 (F := Ideal)) a r).trans ?_
  rw [pay3_apply]

/-- At a later point it is what the point before left plus the point's terms. -/
theorem scratch_next (c : Dev nD) (t : Fin cfg0.N) (h0 : ¬t.val % 4 = 0) (a : Fin 16) (r : Fin 1536) :
    (outsAt0 m c t.val t.isLt).2 (ix2 a r)
      = (outsAt0 m c (t.val - 1) (Nat.lt_of_le_of_lt (Nat.sub_le _ _) t.isLt)).2 (ix2 a r)
        + ∑ j : Fin 1024, aX m c (ix2 a (dcol t j)) * wdq (aW m c) (aS m c) (aZ m c) (aD m c) (aL m c) (aH m c) (orow t r) (dcol t j) := by
  rw [outsAt0_B m c t h0]
  dsimp only
  rw [sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2]
  exact upd_point m c t _ a r

/-- After point `n` the accumulator holds the contraction's first `1024 (n % 4 + 1)` terms. -/
theorem scratch_at (c : Dev nD) : ∀ (n : ℕ) (hn : n < cfg0.N) (a : Fin 16) (r : Fin 1536),
    (outsAt0 m c n hn).2 (ix2 a r)
      = part (aX m c) (aW m c) (aS m c) (aZ m c) (aD m c) (aL m c) (aH m c) a (orow ⟨n, hn⟩ r) (1024 * (n % 4) + 1024) := by
  intro n
  induction n with
  | zero =>
    intro hn a r
    refine (scratch_first m c ⟨0, hn⟩ rfl a r).trans ?_
    rw [part_add_block _ _ _ _ _ _ _ a (orow ⟨0, hn⟩ r) (0 % 4) (by decide)]
    congr 1
  | succ n ih =>
    intro hn a r
    have hk : (n + 1) % 4 < 4 := Nat.mod_lt _ (by decide)
    rw [part_add_block _ _ _ _ _ _ _ a (orow ⟨n + 1, hn⟩ r) ((n + 1) % 4) (by omega)]
    by_cases h0 : (n + 1) % 4 = 0
    · refine (scratch_first m c ⟨n + 1, hn⟩ h0 a r).trans ?_
      congr 1
      have e : 1024 * ((n + 1) % 4) = 0 := by rw [h0]
      rw [e]
      exact (part_zero _ _ _ _ _ _ _ a (orow ⟨n + 1, hn⟩ r)).symm
    · refine (scratch_next m c ⟨n + 1, hn⟩ h0 a r).trans ?_
      congr 1
      have ho : orow ⟨n, Nat.lt_of_succ_lt hn⟩ r = orow ⟨n + 1, hn⟩ r := by
        unfold orow; apply Fin.ext; show 1536 * (n / 4) + r.val = 1536 * ((n + 1) / 4) + r.val; omega
      have e : 1024 * (n % 4) + 1024 = 1024 * ((n + 1) % 4) := by omega
      rw [← ho, ← e]
      exact ih (Nat.lt_of_succ_lt hn) a r

/-- The output block's store at an index: the accumulator there plus the bias row's entry. -/
theorem pay2_apply (v : Vec Ideal S16x1536 .f32) (b : Vec Ideal S1x1536 .f32) (a : Fin 16) (r : Fin 1536) :
    k0_pay2 v b (ix2 a r) = v (ix2 a r) + b (ix2 (0 : Fin 1) r) := by
  unfold k0_pay2
  rw [shapeCast_self, addf_apply, broadcastTo_1b_ab_apply]

/-- What a row's last point writes to the output block: the layer's result on its slab. -/
theorem out_point (c : Dev nD) (t : Fin cfg0.N) (h3 : t.val % 4 = 3) (a : Fin 16) (r : Fin 1536) :
    (outsAt0 m c t.val t.isLt).1 (ix2 a r) = result m c (ix2 a (orow t r)) := by
  have h0 : ¬t.val % 4 = 0 := by omega
  have e : (outsAt0 m c t.val t.isLt).1 = k0_pay2 (outsAt0 m c t.val t.isLt).2 (iblk m c 7 t) := by
    rw [outsAt0_B m c t h0]
    dsimp only
    rw [out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2,
      sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2]
  rw [e, pay2_apply, scratch_at m c t.val t.isLt a r, blk7_apply m c t r]
  show _ = part (aX m c) (aW m c) (aS m c) (aZ m c) (aD m c) (aL m c) (aH m c) a (orow t r) 4096 + aB m c (ix1 (orow t r))
  have e4 : 1024 * (t.val % 4) + 1024 = 4096 := by omega
  rw [e4]
  rfl

/-- What a flushing point writes back is the layer's result read through the point's block. -/
theorem flushed_eq (c : Dev nD) (t : Fin cfg0.N) (hf : (cfg0.win 8).flush t = true) :
    (dats m 0 c).flushed 8 t = ((cfg0.win 8).blk t).view.read (Elt Ideal) (result m c) := by
  have h3 : t.val % 4 = 3 := (flush0_8 t).mp hf
  rw [Value.flushed8]
  funext j
  obtain ⟨a, r, rfl⟩ : ∃ (a : Fin 16) (r : Fin 1536), j = ix2 a r := ⟨j 0, j 1, eq_ix2 j⟩
  show (outsAt0 m c t.val t.isLt).1 (ix2 a r) = result m c (((cfg0.win 8).blk t).view.emb (ix2 a r))
  rw [out_point m c t h3 a r, out_emb t a r]
  rfl

/-- The output array after the run. -/
theorem final (c : Dev nD) : (dats m 0 c).arrAt 8 cfg0.N = result m c :=
  (dats m 0 c).arrAt_eq_of_cover 8 (result m c) (flushed_eq m c) cover8

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Val

end
-- ==== Proof.RefIsSpec.lean ====
/-
  The reference program computes the quantised linear layer.

  Stage by stage the reference (a) clamps each group's scale between its bounds, (b) views the weight matrix
  [12288, 4096] as [393216, 128], one row per group, (c) divides by the group's clamped scale, adds the zero point,
  rounds and clamps to the 4-bit range, (d) subtracts the zero point, multiplies by the scale and subtracts the
  clamped shift, (e) views the result as [12288, 4096] again, (f) contracts it with the activations and adds the bias.
  Every clamp and the rounding are written "straight through", `v + (f v - v)`.

  Read at an entry of the [393216, 128] view, stages (a)–(d) are the straight-through dequantisation of one weight
  with its row's parameters (`stage_deqSte`). Entry `(o, d)` of the matrix sits in row `32 * o + d / 128` of the view
  at column `d % 128`, and going to the view and back is the identity (`view_weight`, `view_group`). At real weights
  and parameters the straight-through spelling equals the direct one, so the dequantised matrix is `wdq`
  (`dequant_eq_wdq`) and the contraction plus bias is the layer `G` (`ref_eq_G`).
-/
import proofs.«166592_j53850299957966_1_alg».proof.Proof.Gen.ReferenceIdeal.Read
import proofs.«166592_j53850299957966_1_alg».proof.Proof.QuantSpec

noncomputable section

namespace Cert.RefBridge

open Idealize.ShloMosaic Idealize.ShloMosaic.ValueIdx Cert.ReferenceIdeal Cert.ReferenceIdeal.Read
open scoped BigOperators

/-- Stages (a)–(d) at an entry `n` of the [393216, 128] view: the straight-through dequantisation of the weight that
    entry holds, with the parameters of row `n 0`. -/
theorem stage_deqSte (x1 : (⟨S12288x4096, .f32⟩ : BufTy).Contents (Elt Ideal))
    (x3 x4 x5 x6 x7 : (⟨S393216x1, .f32⟩ : BufTy).Contents (Elt Ideal)) (n : S393216x128.Idx) :
    val_main_v23 (F := Ideal) x1 x3 x4 x5 x6 x7 n
      = Cert.Quant.deqSte (x1 (idx_main_v3 n)) (x3 (idx_main_v4 n)) (x4 (idx_main_v4 n)) (x5 (idx_main_v4 n))
          (x6 (idx_main_v4 n)) (x7 (idx_main_v4 n)) := by
  simp only [val_main_v23_apply, val_main_v22_apply, val_main_v21_apply, val_main_v20_apply, val_main_v19_apply,
    val_main_v18_apply, val_main_v17_apply, val_main_v16_apply, val_main_v15_apply, val_main_call3_v0_apply,
    val_main_v14_apply, val_main_v13_apply, val_main_v12_apply, val_main_v11_apply, val_main_call2_v4_apply,
    val_main_call2_v3_apply, val_main_call2_v2_apply, val_main_call2_v1_apply, val_main_call2_v0_apply,
    val_main_cst_0_apply, val_main_cst_apply, val_main_v10_apply, val_main_v9_apply, val_main_v8_apply,
    val_main_v7_apply, val_main_v6_apply, val_main_v5_apply, val_main_v4_apply, val_main_v3_apply, val_main_v2_apply,
    val_main_v1_apply, val_main_v0_apply, val_main_call0_v0_apply,
    Ideal.addf_def, Ideal.subf_def, Ideal.mulf_def, Ideal.hostDivf_def, Ideal.maximumf_def, Ideal.minimumf_def,
    Ideal.hostNegf_def, Ideal.negf_def, Ideal.hostUnary_roundeven_def, Ideal.ofBits_def]
  unfold Cert.Quant.deqSte Cert.Quant.sclSte
  rfl

/-- To the view and back: entry `(o, d)` of the matrix is read from entry `(o, d)`. -/
theorem view_weight (o : Fin 12288) (d : Fin 4096) : idx_main_v3 (idx_main_v24 (ix2 o d)) = ix2 o d := by
  have ho := o.isLt
  have hd := d.isLt
  funext a
  match a with
  | ⟨0, _⟩ => exact Fin.ext (by show ((o.val * 4096 + d.val) / 128 * 128 + (o.val * 4096 + d.val) % 128) / 4096 = o.val; omega)
  | ⟨1, _⟩ => exact Fin.ext (by show ((o.val * 4096 + d.val) / 128 * 128 + (o.val * 4096 + d.val) % 128) % 4096 = d.val; omega)

/-- The view's row of entry `(o, d)` is its group, `32 * o + d / 128`. -/
theorem view_group (o : Fin 12288) (d : Fin 4096) : idx_main_v4 (idx_main_v24 (ix2 o d)) = Cert.Quant.grp o d := by
  have ho := o.isLt
  have hd := d.isLt
  funext a
  match a with
  | ⟨0, _⟩ => exact Fin.ext (by show (o.val * 4096 + d.val) / 128 = o.val * 32 + d.val / 128; omega)
  | ⟨1, _⟩ => rfl

/-- At real weights and parameters the reference's dequantised matrix is `wdq`. -/
theorem dequant_eq_wdq (x1 : (⟨S12288x4096, .f32⟩ : BufTy).Contents (Elt Ideal))
    (x3 x4 x5 x6 x7 : (⟨S393216x1, .f32⟩ : BufTy).Contents (Elt Ideal))
    (h1 : ∀ i, ∃ r : ℝ, x1 i = (r : EReal)) (h3 : ∀ i, ∃ r : ℝ, x3 i = (r : EReal))
    (h4 : ∀ i, ∃ r : ℝ, x4 i = (r : EReal)) (h5 : ∀ i, ∃ r : ℝ, x5 i = (r : EReal))
    (h6 : ∀ i, ∃ r : ℝ, x6 i = (r : EReal)) (h7 : ∀ i, ∃ r : ℝ, x7 i = (r : EReal))
    (o : Fin 12288) (d : Fin 4096) :
    val_main_v24 (F := Ideal) x1 x3 x4 x5 x6 x7 (ix2 o d) = Cert.Quant.wdq x1 x3 x4 x5 x6 x7 o d := by
  rw [val_main_v24_apply, stage_deqSte, view_weight, view_group]
  obtain ⟨w, hw⟩ := h1 (ix2 o d)
  obtain ⟨a, ha⟩ := h3 (Cert.Quant.grp o d)
  obtain ⟨z, hz⟩ := h4 (Cert.Quant.grp o d)
  obtain ⟨dz, hdz⟩ := h5 (Cert.Quant.grp o d)
  obtain ⟨lo, hlo⟩ := h6 (Cert.Quant.grp o d)
  obtain ⟨hi, hhi⟩ := h7 (Cert.Quant.grp o d)
  unfold Cert.Quant.wdq
  rw [hw, ha, hz, hdz, hlo, hhi]
  exact Cert.Quant.deqSte_eq w a z dz lo hi

/-- The reference's result is the layer `G` of its arguments. -/
theorem ref_eq_G (x0 : (⟨Cert.ReferenceIdeal.S16x4096, .f32⟩ : BufTy).Contents (Elt Ideal)) (x1 : (⟨Cert.ReferenceIdeal.S12288x4096, .f32⟩ : BufTy).Contents (Elt Ideal)) (x2 : (⟨Cert.ReferenceIdeal.S12288, .f32⟩ : BufTy).Contents (Elt Ideal)) (x3 x4 x5 x6 x7 : (⟨Cert.ReferenceIdeal.S393216x1, .f32⟩ : BufTy).Contents (Elt Ideal))
    (h1 : ∀ i, ∃ r : ℝ, x1 i = (r : EReal)) (h3 : ∀ i, ∃ r : ℝ, x3 i = (r : EReal)) (h4 : ∀ i, ∃ r : ℝ, x4 i = (r : EReal)) (h5 : ∀ i, ∃ r : ℝ, x5 i = (r : EReal)) (h6 : ∀ i, ∃ r : ℝ, x6 i = (r : EReal)) (h7 : ∀ i, ∃ r : ℝ, x7 i = (r : EReal)) :
    Cert.ReferenceIdeal.Read.val_main_v28 (F := Ideal) x0 x1 x2 x3 x4 x5 x6 x7 = Cert.Quant.G x0 x1 x2 x3 x4 x5 x6 x7 := by
  funext i
  obtain ⟨t, o, rfl⟩ : ∃ (t : Fin 16) (o : Fin 12288), i = ix2 t o := ⟨i 0, i 1, eq_ix2 i⟩
  rw [val_main_v28_apply, val_main_v25_apply, val_main_v27_apply, val_main_v26_apply, Ideal.addf_def]
  show _ = Cert.Quant.part x0 x1 x3 x4 x5 x6 x7 t o 4096 + x2 (ix1 o)
  rw [Cert.Quant.part_full]
  have hl : ∀ k : Fin 4096, lidx_main_v25 (ix2 t o) k = ix2 t k := fun k => by
    funext a
    match a with
    | ⟨0, _⟩ => rfl
    | ⟨1, _⟩ => rfl
  have hr : ∀ k : Fin 4096, ridx_main_v25 (ix2 t o) k = ix2 o k := fun k => by
    funext a
    match a with
    | ⟨0, _⟩ => rfl
    | ⟨1, _⟩ => rfl
  have hb : idx_main_v26 (idx_main_v27 (ix2 t o)) = ix1 o := by
    funext a
    match a with
    | ⟨0, _⟩ => rfl
  rw [hb]
  congr 1
  refine Finset.sum_congr rfl fun k _ => ?_
  rw [hl, hr, dequant_eq_wdq x1 x3 x4 x5 x6 x7 h1 h3 h4 h5 h6 h7 o k]

end Cert.RefBridge

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.FiniteInputs.lean ====
/-
  The finiteness precondition, read back as facts about the entries.

  The precondition is the conjunction, over the eight arguments, of "every entry has absolute value below +∞"; each
  conjunct is a reduction by `and` over a whole array, and the eight results are joined by `and` from the left:

      ((((((c0 ∧ c1) ∧ c2) ∧ c3) ∧ c4) ∧ c5) ∧ c6) ∧ c7 = 1.

  A one-bit `and` is 1 exactly when both sides are, so the nest splits into its eight conjuncts, and a reduction by
  `and` that is 1 met only 1s: `|a i| < +∞` at every index, which on the extended reals says `a i` is a real
  number. The facts are stated for the weight and the five group parameters, the arguments whose entries the
  dequantisation divides by, rounds and clamps.
-/
import proofs.«166592_j53850299957966_1_alg».proof.Pre_finite_inputs
import proofs.«166592_j53850299957966_1_alg».proof.Proof.LibFinite

noncomputable section

namespace Cert.FiniteInputs

open Idealize.ShloMosaic

/-- Under the precondition the weight and the five group parameters are real at every index. -/
theorem reals_of_pre [Cert.Pre_finite_inputs.Facts] (a0 : FVec Ideal Cert.Pre_finite_inputs.S16x4096 .f32) (a1 : FVec Ideal Cert.Pre_finite_inputs.S12288x4096 .f32) (a2 : FVec Ideal Cert.Pre_finite_inputs.S12288 .f32) (a3 a4 a5 a6 a7 : FVec Ideal Cert.Pre_finite_inputs.S393216x1 .f32)
    (h : Cert.Pre_finite_inputs.fn (F := Ideal) a0 a1 a2 a3 a4 a5 a6 a7 = fun _ => 1#1) :
    (∀ i, ∃ r : ℝ, a1 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) := by
  have e := congrFun h ValueIdx.ix0
  dsimp only [Cert.Pre_finite_inputs.fn, Cert.Pre_finite_inputs.fn_part1, Cert.Pre_finite_inputs.fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, _⟩ := IntOp.andi_eq_one.1 e
  obtain ⟨_, e1⟩ := IntOp.andi_eq_one.1 e
  exact ⟨Cert.LibFinite.real_of_all a1 _ _ _ _ e1, Cert.LibFinite.real_of_all a3 _ _ _ _ e3,
    Cert.LibFinite.real_of_all a4 _ _ _ _ e4, Cert.LibFinite.real_of_all a5 _ _ _ _ e5,
    Cert.LibFinite.real_of_all a6 _ _ _ _ e6, Cert.LibFinite.real_of_all a7 _ _ _ _ e7⟩

end Cert.FiniteInputs

end
-- ==== Proof.lean ====
/-
  A quantised linear layer: the fused kernel against the plain reference, over the extended reals.

  Both programs fake-quantise a [12288, 4096] weight matrix in groups of 128 consecutive weights of a row — clamp the
  group's scale between its bounds, divide, add the zero point, round, clamp to the 4-bit range, subtract the zero
  point, multiply by the scale, subtract the clamped zero-point shift — and then compute `x · W_dqᵀ + bias`.

  The kernel walks a grid of 8 slabs of output features by 4 slabs of input features; at each point it dequantises
  a [1536, 1024] block on the fly, multiplies it with the [16, 1024] block of `x` and adds the product into an
  accumulator that is cleared at the first of the four points; the last point's accumulator plus bias is the output
  slab. On the extended reals addition is associative and commutative, so the four block sums are the whole
  contraction (Proof/KernelValue.lean).

  The reference spells every clamp and the rounding "straight through", `v + (f v - v)`, which equals `f v` only
  where `v` is a real number. All inputs are finite by the precondition, so the clamps of the scale and of the shift
  agree outright; the rounded quantity is a real unless the clamped scale is zero, and then both spellings are
  multiplied by that zero (Proof/QuantElem.lean). So both programs compute the one function `Cert.Quant.G` of their
  arguments (Proof/QuantSpec.lean, Proof/RefIsSpec.lean); the finiteness of the weights and of the five group
  parameters is what the precondition is used for (Proof/FiniteInputs.lean).
-/
import proofs.«166592_j53850299957966_1_alg».proof.Defs
import proofs.«166592_j53850299957966_1_alg».proof.Proof.Gen.Kernel
import proofs.«166592_j53850299957966_1_alg».proof.Proof.Gen.Kernel.Skeleton
import proofs.«166592_j53850299957966_1_alg».proof.Proof.Gen.Kernel.Launch
import proofs.«166592_j53850299957966_1_alg».proof.Proof.Gen.Kernel.Points
import proofs.«166592_j53850299957966_1_alg».proof.Proof.Gen.Kernel.Frame
import proofs.«166592_j53850299957966_1_alg».proof.Proof.Gen.KernelIdeal
import proofs.«166592_j53850299957966_1_alg».proof.Proof.Gen.KernelIdeal.Skeleton
import proofs.«166592_j53850299957966_1_alg».proof.Proof.Gen.KernelIdeal.Launch
import proofs.«166592_j53850299957966_1_alg».proof.Proof.Gen.KernelIdeal.Points
import proofs.«166592_j53850299957966_1_alg».proof.Proof.Gen.KernelIdeal.Frame
import proofs.«166592_j53850299957966_1_alg».proof.Proof.Gen.ReferenceIdeal
import proofs.«166592_j53850299957966_1_alg».proof.Proof.Gen.Pre_finite_inputs
import proofs.«166592_j53850299957966_1_alg».proof.Proof.Gen.KernelIdeal.Value
import proofs.«166592_j53850299957966_1_alg».proof.Proof.Gen.ReferenceIdeal.Run
import proofs.«166592_j53850299957966_1_alg».proof.Proof.Gen.ReferenceIdeal.Read
import proofs.«166592_j53850299957966_1_alg».proof.Proof.KernelValue
import proofs.«166592_j53850299957966_1_alg».proof.Proof.RefIsSpec
import proofs.«166592_j53850299957966_1_alg».proof.Proof.FiniteInputs
import Idealize.ShloMosaic.Adequacy
import Idealize.ShloMosaic.Init

noncomputable section

namespace Cert.Proof

open Idealize.ShloMosaic Idealize.SL.Sem

/-- The three programs run and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From arguments that agree and are finite, both programs end at the layer `G` of the arguments. -/
theorem algebraic : Cert.algebraic_KernelIdeal_ReferenceIdeal := by
  intro m ρ m' ρ' hpre hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  obtain ⟨e0, e1, e2, e3, e4, e5, e6, e7⟩ := hagree c
  rw [e0, e1, e2, e3, e4, e5, e6, e7]
  obtain ⟨h1, h3, h4, h5, h6, h7⟩ := Cert.FiniteInputs.reals_of_pre _ _ _ _ _ _ _ _ (hpre c)
  exact Cert.RefBridge.ref_eq_G _ _ _ _ _ _ _ _ h1 h3 h4 h5 h6 h7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
